-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S100000x200 : Shape := ⟨2, ![100000, 200]⟩
abbrev S500x200 : Shape := ⟨2, ![500, 200]⟩
abbrev S1 : Shape := ⟨1, ![1]⟩
abbrev S288x200 : Shape := ⟨2, ![288, 200]⟩
abbrev S288 : Shape := ⟨1, ![288]⟩
abbrev S32 : Shape := ⟨1, ![32]⟩
abbrev S400x12544 : Shape := ⟨2, ![400, 12544]⟩
abbrev S400 : Shape := ⟨1, ![400]⟩
abbrev S1x400 : Shape := ⟨2, ![1, 400]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_
  bcast_S_S1 : S_.BroadcastsInDim S1 (![] : Fin 0 → Fin S1.rank)
  reducesTo_S1_S_d0 : S1.ReducesTo [0] S_
  bcast_S_S288x200 : S_.BroadcastsInDim S288x200 (![] : Fin 0 → Fin S288x200.rank)
  reducesTo_S288x200_S_d0_1 : S288x200.ReducesTo [0, 1] S_
  bcast_S_S288 : S_.BroadcastsInDim S288 (![] : Fin 0 → Fin S288.rank)
  reducesTo_S288_S_d0 : S288.ReducesTo [0] S_
  bcast_S_S32 : S_.BroadcastsInDim S32 (![] : Fin 0 → Fin S32.rank)
  reducesTo_S32_S_d0 : S32.ReducesTo [0] S_
  bcast_S_S400x12544 : S_.BroadcastsInDim S400x12544 (![] : Fin 0 → Fin S400x12544.rank)
  reducesTo_S400x12544_S_d0_1 : S400x12544.ReducesTo [0, 1] S_
  bcast_S_S400 : S_.BroadcastsInDim S400 (![] : Fin 0 → Fin S400.rank)
  reducesTo_S400_S_d0 : S400.ReducesTo [0] S_
  bcast_S_S1x400 : S_.BroadcastsInDim S1x400 (![] : Fin 0 → Fin S1x400.rank)
  reducesTo_S1x400_S_d0_1 : S1x400.ReducesTo [0, 1] S_

variable [Facts]

def fn_part6 {F : FTy → Type} [FloatOps F] (main_arg8 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_cst_40 : FVec F S_ .f32 := constant S_ .f32 0x3727C5AC#32
  let main_v104 : FVec F S1 .f32 := broadcastInDim S1 ![] bcast_S_S1 main_cst_40
  let main_v105 : FVec F S1 .f32 := addf main_arg8 main_v104
  let main_cst_41 : FVec F S_ .f32 := constant S_ .f32 0x00000000#32
  let main_v106 : FVec F S1 .f32 := broadcastInDim S1 ![] bcast_S_S1 main_cst_41
  let main_v107 : IVec S1 1 := cmpf .ogt main_v105 main_v106
  let main_c_42 : IVec S_ 1 := constantI S_ 1 1#1
  let main_v108 : IVec S_ 1 := (fun x v => Host.reduce IntOp.andi x v reducesTo_S1_S_d0 h_S_) main_v107 main_c_42
  let main_v109 : IVec S_ 1 := andi main_v103 main_v108
  main_v109

def fn_part5 {F : FTy → Type} [FloatOps F] (main_arg8 : FVec F S1 .f32) (main_arg21 : FVec F S1x400 .f32) (main_arg22 : FVec F S1 .f32) (main_arg23 : FVec F S1 .f32) (main_v83 : IVec S_ 1) (main_v84 : FVec F S400 .f32) (main_cst_32 : FVec F S_ .f32) : IVec S_ 1 :=
  let main_v85 : FVec F S400 .f32 := broadcastInDim S400 ![] bcast_S_S400 main_cst_32
  let main_v86 : IVec S400 1 := cmpf .olt main_v84 main_v85
  let main_c_33 : IVec S_ 1 := constantI S_ 1 1#1
  let main_v87 : IVec S_ 1 := (fun x v => Host.reduce IntOp.andi x v reducesTo_S400_S_d0 h_S_) main_v86 main_c_33
  let main_v88 : IVec S_ 1 := andi main_v83 main_v87
  let main_v89 : FVec F S1x400 .f32 := Host.absf main_arg21
  let main_cst_34 : FVec F S_ .f32 := constant S_ .f32 0x7F800000#32
  let main_v90 : FVec F S1x400 .f32 := broadcastInDim S1x400 ![] bcast_S_S1x400 main_cst_34
  let main_v91 : IVec S1x400 1 := cmpf .olt main_v89 main_v90
  let main_c_35 : IVec S_ 1 := constantI S_ 1 1#1
  let main_v92 : IVec S_ 1 := (fun x v => Host.reduce IntOp.andi x v reducesTo_S1x400_S_d0_1 h_S_) main_v91 main_c_35
  let main_v93 : IVec S_ 1 := andi main_v88 main_v92
  let main_v94 : FVec F S1 .f32 := Host.absf main_arg22
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S1 .f32 := Host.absf main_arg23
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg8 main_v98 main_v101 main_c_39

def fn_part4 {F : FTy → Type} [FloatOps F] (main_arg8 : FVec F S1 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v63 : IVec S_ 1) (main_v67 : IVec S_ 1) : IVec S_ 1 :=
  let main_v68 : IVec S_ 1 := andi main_v63 main_v67
  let main_v69 : FVec F S400 .f32 := Host.absf main_arg17
  let main_cst_26 : FVec F S_ .f32 := constant S_ .f32 0x7F800000#32
  let main_v70 : FVec F S400 .f32 := broadcastInDim S400 ![] bcast_S_S400 main_cst_26
  let main_v71 : IVec S400 1 := cmpf .olt main_v69 main_v70
  let main_c_27 : IVec S_ 1 := constantI S_ 1 1#1
  let main_v72 : IVec S_ 1 := (fun x v => Host.reduce IntOp.andi x v reducesTo_S400_S_d0 h_S_) main_v71 main_c_27
  let main_v73 : IVec S_ 1 := andi main_v68 main_v72
  let main_v74 : FVec F S400 .f32 := Host.absf main_arg18
  let main_cst_28 : FVec F S_ .f32 := constant S_ .f32 0x7F800000#32
  let main_v75 : FVec F S400 .f32 := broadcastInDim S400 ![] bcast_S_S400 main_cst_28
  let main_v76 : IVec S400 1 := cmpf .olt main_v74 main_v75
  let main_c_29 : IVec S_ 1 := constantI S_ 1 1#1
  let main_v77 : IVec S_ 1 := (fun x v => Host.reduce IntOp.andi x v reducesTo_S400_S_d0 h_S_) main_v76 main_c_29
  let main_v78 : IVec S_ 1 := andi main_v73 main_v77
  let main_v79 : FVec F S400 .f32 := Host.absf main_arg19
  let main_cst_30 : FVec F S_ .f32 := constant S_ .f32 0x7F800000#32
  let main_v80 : FVec F S400 .f32 := broadcastInDim S400 ![] bcast_S_S400 main_cst_30
  let main_v81 : IVec S400 1 := cmpf .olt main_v79 main_v80
  let main_c_31 : IVec S_ 1 := constantI S_ 1 1#1
  let main_v82 : IVec S_ 1 := (fun x v => Host.reduce IntOp.andi x v reducesTo_S400_S_d0 h_S_) main_v81 main_c_31
  let main_v83 : IVec S_ 1 := andi main_v78 main_v82
  let main_v84 : FVec F S400 .f32 := Host.absf main_arg20
  let main_cst_32 : FVec F S_ .f32 := constant S_ .f32 0x7F800000#32
  fn_part5 (F := F) main_arg8 main_arg21 main_arg22 main_arg23 main_v83 main_v84 main_cst_32

def fn_part3 {F : FTy → Type} [FloatOps F] (main_arg8 : FVec F S1 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg14
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S400x12544 .f32 := Host.absf main_arg15
  let main_cst_22 : FVec F S_ .f32 := constant S_ .f32 0x7F800000#32
  let main_v60 : FVec F S400x12544 .f32 := broadcastInDim S400x12544 ![] bcast_S_S400x12544 main_cst_22
  let main_v61 : IVec S400x12544 1 := cmpf .olt main_v59 main_v60
  let main_c_23 : IVec S_ 1 := constantI S_ 1 1#1
  let main_v62 : IVec S_ 1 := (fun x v => Host.reduce IntOp.andi x v reducesTo_S400x12544_S_d0_1 h_S_) main_v61 main_c_23
  let main_v63 : IVec S_ 1 := andi main_v58 main_v62
  let main_v64 : FVec F S400 .f32 := Host.absf main_arg16
  let main_cst_24 : FVec F S_ .f32 := constant S_ .f32 0x7F800000#32
  let main_v65 : FVec F S400 .f32 := broadcastInDim S400 ![] bcast_S_S400 main_cst_24
  let main_v66 : IVec S400 1 := cmpf .olt main_v64 main_v65
  let main_c_25 : IVec S_ 1 := constantI S_ 1 1#1
  let main_v67 : IVec S_ 1 := (fun x v => Host.reduce IntOp.andi x v reducesTo_S400_S_d0 h_S_) main_v66 main_c_25
  fn_part4 (F := F) main_arg8 main_arg17 main_arg18 main_arg19 main_arg20 main_arg21 main_arg22 main_arg23 main_v63 main_v67

def fn_part2 {F : FTy → Type} [FloatOps F] (main_arg8 : FVec F S1 .f32) (main_arg10 : FVec F S288 .f32) (main_arg11 : FVec F S32 .f32) (main_arg12 : FVec F S32 .f32) (main_arg13 : FVec F S32 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v33 : IVec S_ 1) : IVec S_ 1 :=
  let main_v34 : FVec F S288 .f32 := Host.absf main_arg10
  let main_cst_12 : FVec F S_ .f32 := constant S_ .f32 0x7F800000#32
  let main_v35 : FVec F S288 .f32 := broadcastInDim S288 ![] bcast_S_S288 main_cst_12
  let main_v36 : IVec S288 1 := cmpf .olt main_v34 main_v35
  let main_c_13 : IVec S_ 1 := constantI S_ 1 1#1
  let main_v37 : IVec S_ 1 := (fun x v => Host.reduce IntOp.andi x v reducesTo_S288_S_d0 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg8 main_arg14 main_arg15 main_arg16 main_arg17 main_arg18 main_arg19 main_arg20 main_arg21 main_arg22 main_arg23 main_v48 main_v49 main_v50

def fn_part1 {F : FTy → Type} [FloatOps F] (main_arg7 : FVec F S1 .f32) (main_arg8 : FVec F S1 .f32) (main_arg9 : FVec F S288x200 .f32) (main_arg10 : FVec F S288 .f32) (main_arg11 : FVec F S32 .f32) (main_arg12 : FVec F S32 .f32) (main_arg13 : FVec F S32 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S288x200 .f32 := Host.absf main_arg9
  let main_cst_10 : FVec F S_ .f32 := constant S_ .f32 0x7F800000#32
  let main_v30 : FVec F S288x200 .f32 := broadcastInDim S288x200 ![] bcast_S_S288x200 main_cst_10
  let main_v31 : IVec S288x200 1 := cmpf .olt main_v29 main_v30
  let main_c_11 : IVec S_ 1 := constantI S_ 1 1#1
  let main_v32 : IVec S_ 1 := (fun x v => Host.reduce IntOp.andi x v reducesTo_S288x200_S_d0_1 h_S_) main_v31 main_c_11
  let main_v33 : IVec S_ 1 := andi main_v28 main_v32
  fn_part2 (F := F) main_arg8 main_arg10 main_arg11 main_arg12 main_arg13 main_arg14 main_arg15 main_arg16 main_arg17 main_arg18 main_arg19 main_arg20 main_arg21 main_arg22 main_arg23 main_v33

def fn {F : FTy → Type} [FloatOps F] (main_arg0 : IVec S4096 32) (main_arg1 : IVec S4096 32) (main_arg2 : IVec S4096 32) (main_arg3 : FVec F S100000x200 .f32) (main_arg4 : FVec F S500x200 .f32) (main_arg5 : FVec F S1 .f32) (main_arg6 : FVec F S1 .f32) (main_arg7 : FVec F S1 .f32) (main_arg8 : FVec F S1 .f32) (main_arg9 : FVec F S288x200 .f32) (main_arg10 : FVec F S288 .f32) (main_arg11 : FVec F S32 .f32) (main_arg12 : FVec F S32 .f32) (main_arg13 : FVec F S32 .f32) (main_arg14 : FVec F S32 .f32) (main_arg15 : FVec F S400x12544 .f32) (main_arg16 : FVec F S400 .f32) (main_arg17 : FVec F S400 .f32) (main_arg18 : FVec F S400 .f32) (main_arg19 : FVec F S400 .f32) (main_arg20 : FVec F S400 .f32) (main_arg21 : FVec F S1x400 .f32) (main_arg22 : FVec F S1 .f32) (main_arg23 : FVec F S1 .f32) : IVec S_ 1 :=
  let main_v0 : FVec F S100000x200 .f32 := Host.absf main_arg3
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S500x200 .f32 := Host.absf main_arg4
  let main_cst_0 : FVec F S_ .f32 := constant S_ .f32 0x7F800000#32
  let main_v5 : FVec F S500x200 .f32 := broadcastInDim S500x200 ![] bcast_S_S500x200 main_cst_0
  let main_v6 : IVec S500x200 1 := cmpf .olt main_v4 main_v5
  let main_c_1 : IVec S_ 1 := constantI S_ 1 1#1
  let main_v7 : IVec S_ 1 := (fun x v => Host.reduce IntOp.andi x v reducesTo_S500x200_S_d0_1 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S4096 : Shape := ⟨1, ![4096]⟩
abbrev S100000x200 : Shape := ⟨2, ![100000, 200]⟩
abbrev S500x200 : Shape := ⟨2, ![500, 200]⟩
abbrev S1 : Shape := ⟨1, ![1]⟩
abbrev S288x200 : Shape := ⟨2, ![288, 200]⟩
abbrev S288 : Shape := ⟨1, ![288]⟩
abbrev S32 : Shape := ⟨1, ![32]⟩
abbrev S400x12544 : Shape := ⟨2, ![400, 12544]⟩
abbrev S400 : Shape := ⟨1, ![400]⟩
abbrev S1x400 : Shape := ⟨2, ![1, 400]⟩
abbrev S_ : Shape := ⟨0, ![]⟩
abbrev S4096x1 : Shape := ⟨2, ![4096, 1]⟩
abbrev S4096x200 : Shape := ⟨2, ![4096, 200]⟩
abbrev S4096x400 : Shape := ⟨2, ![4096, 400]⟩
abbrev S32x9x200 : Shape := ⟨3, ![32, 9, 200]⟩
abbrev S9x200x32 : Shape := ⟨3, ![9, 200, 32]⟩
abbrev S32x9 : Shape := ⟨2, ![32, 9]⟩
abbrev S9x32 : Shape := ⟨2, ![9, 32]⟩
abbrev S12544x400 : Shape := ⟨2, ![12544, 400]⟩
abbrev S400x1 : Shape := ⟨2, ![400, 1]⟩
abbrev S64x400 : Shape := ⟨2, ![64, 400]⟩
abbrev S64x200 : Shape := ⟨2, ![64, 200]⟩
abbrev S64x1 : Shape := ⟨2, ![64, 1]⟩
abbrev S64x32x392 : Shape := ⟨3, ![64, 32, 392]⟩
abbrev S1x1 : Shape := ⟨2, ![1, 1]⟩
abbrev S1x200x32 : Shape := ⟨3, ![1, 200, 32]⟩
abbrev S200x32 : Shape := ⟨2, ![200, 32]⟩
abbrev S64x32 : Shape := ⟨2, ![64, 32]⟩
abbrev S1x32 : Shape := ⟨2, ![1, 32]⟩
abbrev S64x392 : Shape := ⟨2, ![64, 392]⟩
abbrev S64x32x1 : Shape := ⟨3, ![64, 32, 1]⟩
abbrev S64x1x392 : Shape := ⟨3, ![64, 1, 392]⟩
abbrev S32x1 : Shape := ⟨2, ![32, 1]⟩
abbrev S1x32x1 : Shape := ⟨3, ![1, 32, 1]⟩
abbrev S64x12544 : Shape := ⟨2, ![64, 12544]⟩

abbrev nBuf : Space → Nat
  | .hbm => 77
  | .vmem => 22
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S100000x200, .f32⟩
  | .hbm, ⟨4, _⟩ => ⟨S500x200, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S288x200, .f32⟩
  | .hbm, ⟨10, _⟩ => ⟨S288, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S400x12544, .f32⟩
  | .hbm, ⟨16, _⟩ => ⟨S400, .f32⟩
  | .hbm, ⟨17, _⟩ => ⟨S400, .f32⟩
  | .hbm, ⟨18, _⟩ => ⟨S400, .f32⟩
  | .hbm, ⟨19, _⟩ => ⟨S400, .f32⟩
  | .hbm, ⟨20, _⟩ => ⟨S400, .f32⟩
  | .hbm, ⟨21, _⟩ => ⟨S1x400, .f32⟩
  | .hbm, ⟨22, _⟩ => ⟨S1, .f32⟩
  | .hbm, ⟨23, _⟩ => ⟨S1, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x200, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x200, .f32⟩
  | .hbm, ⟨42, _⟩ => ⟨S4096x400, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x200, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S400, .f32⟩
  | .hbm, ⟨66, _⟩ => ⟨S400, .f32⟩
  | .hbm, ⟨67, _⟩ => ⟨S400, .f32⟩
  | .hbm, ⟨68, _⟩ => ⟨S400, .f32⟩
  | .hbm, ⟨69, _⟩ => ⟨S32x9x200, .f32⟩
  | .hbm, ⟨70, _⟩ => ⟨S9x200x32, .f32⟩
  | .hbm, ⟨71, _⟩ => ⟨S32x9, .f32⟩
  | .hbm, ⟨72, _⟩ => ⟨S9x32, .f32⟩
  | .hbm, ⟨73, _⟩ => ⟨S12544x400, .f32⟩
  | .hbm, ⟨74, _⟩ => ⟨S12544x400, .bf16⟩
  | .hbm, ⟨75, _⟩ => ⟨S400x1, .f32⟩
  | .hbm, ⟨76, _⟩ => ⟨S4096x1, .f32⟩
  | .local _ .vmem, ⟨0, _⟩ => ⟨S64x400, .f32⟩
  | .local _ .vmem, ⟨1, _⟩ => ⟨S64x400, .f32⟩
  | .local _ .vmem, ⟨2, _⟩ => ⟨S64x200, .f32⟩
  | .local _ .vmem, ⟨3, _⟩ => ⟨S64x200, .f32⟩
  | .local _ .vmem, ⟨4, _⟩ => ⟨S1, .f32⟩
  | .local _ .vmem, ⟨5, _⟩ => ⟨S1, .f32⟩
  | .local _ .vmem, ⟨6, _⟩ => ⟨S9x200x32, .f32⟩
  | .local _ .vmem, ⟨7, _⟩ => ⟨S9x32, .f32⟩
  | .local _ .vmem, ⟨8, _⟩ => ⟨S32, .f32⟩
  | .local _ .vmem, ⟨9, _⟩ => ⟨S32, .f32⟩
  | .local _ .vmem, ⟨10, _⟩ => ⟨S32, .f32⟩
  | .local _ .vmem, ⟨11, _⟩ => ⟨S12544x400, .bf16⟩
  | .local _ .vmem, ⟨12, _⟩ => ⟨S400, .f32⟩
  | .local _ .vmem, ⟨13, _⟩ => ⟨S400, .f32⟩
  | .local _ .vmem, ⟨14, _⟩ => ⟨S400, .f32⟩
  | .local _ .vmem, ⟨15, _⟩ => ⟨S400, .f32⟩
  | .local _ .vmem, ⟨16, _⟩ => ⟨S400x1, .f32⟩
  | .local _ .vmem, ⟨17, _⟩ => ⟨S1, .f32⟩
  | .local _ .vmem, ⟨18, _⟩ => ⟨S1, .f32⟩
  | .local _ .vmem, ⟨19, _⟩ => ⟨S64x1, .f32⟩
  | .local _ .vmem, ⟨20, _⟩ => ⟨S64x1, .f32⟩
  | .local _ .vmem, ⟨21, _⟩ => ⟨S64x32x392, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x200x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12544x400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S400 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S400 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S400x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S64x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x200_S4096x200_S4096x400_d1 : Shape.Concatenates [S4096x200, S4096x200] S4096x400 1
  bcast_S_S1 : S_.BroadcastsInDim S1 (![] : Fin 0 → Fin S1.rank)
  bcast_S_S32 : S_.BroadcastsInDim S32 (![] : Fin 0 → Fin S32.rank)
  bcast_S_S400 : S_.BroadcastsInDim S400 (![] : Fin 0 → Fin S400.rank)
  shapeCasts_S288x200_S32x9x200 : S288x200.ShapeCasts S32x9x200
  transposes_S32x9x200_S9x200x32_1_2_0 : S32x9x200.Transposes [1, 2, 0] S9x200x32
  shapeCasts_S288_S32x9 : S288.ShapeCasts S32x9
  transposes_S32x9_S9x32_1_0 : S32x9.Transposes [1, 0] S9x32
  transposes_S400x12544_S12544x400_1_0 : S400x12544.Transposes [1, 0] S12544x400
  bitsLt_bf16_f32 : FTy.bits .bf16 < FTy.bits .f32
  transposes_S1x400_S400x1_1_0 : S1x400.Transposes [1, 0] S400x1
  inb_S64x400_S64x400_0_0 : ∀ a, (![0, 0] : Fin 2 → Nat) a + S64x400.size a ≤ S64x400.size a
  h_S64x400 : 0 < S64x400.numel
  shapeCasts_S64x400_S64x400 : S64x400.ShapeCasts S64x400
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S64x400 : S1x1.Broadcasts S64x400
  inb_S64x200_S64x200_0_0 : ∀ a, (![0, 0] : Fin 2 → Nat) a + S64x200.size a ≤ S64x200.size a
  h_S64x200 : 0 < S64x200.numel
  shapeCasts_S64x200_S64x200 : S64x200.ShapeCasts S64x200
  inb_S64x32x392_S64x32x392_0_0_0 : ∀ a, (![0, 0, 0] : Fin 3 → Nat) a + S64x32x392.size a ≤ S64x32x392.size a
  h_S64x32x392 : 0 < S64x32x392.numel
  shapeCasts_S64x32x392_S64x32x392 : S64x32x392.ShapeCasts S64x32x392
  inb_S9x200x32_S1x200x32_0_0_0 : ∀ a, (![0, 0, 0] : Fin 3 → Nat) a + S1x200x32.size a ≤ S9x200x32.size a
  h_S1x200x32 : 0 < S1x200x32.numel
  shapeCasts_S1x200x32_S200x32 : S1x200x32.ShapeCasts S200x32
  inb_S9x32_S1x32_0_0 : ∀ a, (![0, 0] : Fin 2 → Nat) a + S1x32.size a ≤ S9x32.size a
  h_S1x32 : 0 < S1x32.numel
  shapeCasts_S1x32_S32 : S1x32.ShapeCasts S32
  shapeCasts_S32_S1x32 : S32.ShapeCasts S1x32
  broadcasts_S1x32_S64x32 : S1x32.Broadcasts S64x32
  slices_S64x400_o0_0_S64x392 : S64x400.Slices ![0, 0] S64x392
  shapeCasts_S64x32_S64x32x1 : S64x32.ShapeCasts S64x32x1
  shapeCasts_S64x392_S64x1x392 : S64x392.ShapeCasts S64x1x392
  broadcasts_S64x32x1_S64x32x392 : S64x32x1.Broadcasts S64x32x392
  broadcasts_S64x1x392_S64x32x392 : S64x1x392.Broadcasts S64x32x392
  inb_S9x200x32_S1x200x32_1_0_0 : ∀ a, (![1, 0, 0] : Fin 3 → Nat) a + S1x200x32.size a ≤ S9x200x32.size a
  inb_S9x32_S1x32_1_0 : ∀ a, (![1, 0] : Fin 2 → Nat) a + S1x32.size a ≤ S9x32.size a
  slices_S64x400_o0_1_S64x392 : S64x400.Slices ![0, 1] S64x392
  inb_S9x200x32_S1x200x32_2_0_0 : ∀ a, (![2, 0, 0] : Fin 3 → Nat) a + S1x200x32.size a ≤ S9x200x32.size a
  inb_S9x32_S1x32_2_0 : ∀ a, (![2, 0] : Fin 2 → Nat) a + S1x32.size a ≤ S9x32.size a
  slices_S64x400_o0_2_S64x392 : S64x400.Slices ![0, 2] S64x392
  inb_S9x200x32_S1x200x32_3_0_0 : ∀ a, (![3, 0, 0] : Fin 3 → Nat) a + S1x200x32.size a ≤ S9x200x32.size a
  inb_S9x32_S1x32_3_0 : ∀ a, (![3, 0] : Fin 2 → Nat) a + S1x32.size a ≤ S9x32.size a
  slices_S64x400_o0_3_S64x392 : S64x400.Slices ![0, 3] S64x392
  inb_S9x200x32_S1x200x32_4_0_0 : ∀ a, (![4, 0, 0] : Fin 3 → Nat) a + S1x200x32.size a ≤ S9x200x32.size a
  inb_S9x32_S1x32_4_0 : ∀ a, (![4, 0] : Fin 2 → Nat) a + S1x32.size a ≤ S9x32.size a
  slices_S64x400_o0_4_S64x392 : S64x400.Slices ![0, 4] S64x392
  inb_S9x200x32_S1x200x32_5_0_0 : ∀ a, (![5, 0, 0] : Fin 3 → Nat) a + S1x200x32.size a ≤ S9x200x32.size a
  inb_S9x32_S1x32_5_0 : ∀ a, (![5, 0] : Fin 2 → Nat) a + S1x32.size a ≤ S9x32.size a
  slices_S64x400_o0_5_S64x392 : S64x400.Slices ![0, 5] S64x392
  inb_S9x200x32_S1x200x32_6_0_0 : ∀ a, (![6, 0, 0] : Fin 3 → Nat) a + S1x200x32.size a ≤ S9x200x32.size a
  inb_S9x32_S1x32_6_0 : ∀ a, (![6, 0] : Fin 2 → Nat) a + S1x32.size a ≤ S9x32.size a
  slices_S64x400_o0_6_S64x392 : S64x400.Slices ![0, 6] S64x392
  inb_S9x200x32_S1x200x32_7_0_0 : ∀ a, (![7, 0, 0] : Fin 3 → Nat) a + S1x200x32.size a ≤ S9x200x32.size a
  inb_S9x32_S1x32_7_0 : ∀ a, (![7, 0] : Fin 2 → Nat) a + S1x32.size a ≤ S9x32.size a
  slices_S64x400_o0_7_S64x392 : S64x400.Slices ![0, 7] S64x392
  inb_S9x200x32_S1x200x32_8_0_0 : ∀ a, (![8, 0, 0] : Fin 3 → Nat) a + S1x200x32.size a ≤ S9x200x32.size a
  inb_S9x32_S1x32_8_0 : ∀ a, (![8, 0] : Fin 2 → Nat) a + S1x32.size a ≤ S9x32.size a
  slices_S64x400_o0_8_S64x392 : S64x400.Slices ![0, 8] S64x392
  inb_S32_S32_0 : ∀ a, (![0] : Fin 1 → Nat) a + S32.size a ≤ S32.size a
  h_S32 : 0 < S32.numel
  shapeCasts_S32_S32x1 : S32.ShapeCasts S32x1
  shapeCasts_S32_S32 : S32.ShapeCasts S32
  shapeCasts_S32x1_S1x32x1 : S32x1.ShapeCasts S1x32x1
  broadcasts_S1x32x1_S64x32x392 : S1x32x1.Broadcasts S64x32x392
  shapeCasts_S64x32x392_S64x12544 : S64x32x392.ShapeCasts S64x12544
  inb_S12544x400_S12544x400_0_0 : ∀ a, (![0, 0] : Fin 2 → Nat) a + S12544x400.size a ≤ S12544x400.size a
  h_S12544x400 : 0 < S12544x400.numel
  shapeCasts_S12544x400_S12544x400 : S12544x400.ShapeCasts S12544x400
  inb_S400_S400_0 : ∀ a, (![0] : Fin 1 → Nat) a + S400.size a ≤ S400.size a
  h_S400 : 0 < S400.numel
  shapeCasts_S400_S1x400 : S400.ShapeCasts S1x400
  broadcasts_S1x400_S64x400 : S1x400.Broadcasts S64x400
  shapeCasts_S400_S400 : S400.ShapeCasts S400
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S100000x200_S4096x1_S4096x200_1_0_n_n_0_1_1200_wf : GatherDims.WF S100000x200 S4096x1 S4096x200 [1] [0] [] [0] [] 1 ![1, 200]
  gather_S500x200_S4096x1_S4096x200_1_0_n_n_0_1_1200_wf : GatherDims.WF S500x200 S4096x1 S4096x200 [1] [0] [] [0] [] 1 ![1, 200]
  dot_S64x200_S200x32_S64x32_1_0_0_1_n_n_wf : DotDims.WF S64x200 S200x32 S64x32 [1] [0] [0] [1] [] []
  dot_S64x12544_S12544x400_S64x400_1_0_0_1_n_n_wf : DotDims.WF S64x12544 S12544x400 S64x400 [1] [0] [0] [1] [] []
  dot_S64x400_S400x1_S64x1_1_0_0_1_n_n_wf : DotDims.WF S64x400 S400x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x400.size a ≤ S4096x400.size a
  hwx0_0 : ∀ i : grid0.Coords, EltTy.bits .f32 = 32 ∨ (Rect.block (s := S4096x400) S64x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200.size a ≤ S4096x200.size a
  hwx0_1 : ∀ i : grid0.Coords, EltTy.bits .f32 = 32 ∨ (Rect.block (s := S4096x200) S64x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x200x32.size a ≤ S9x200x32.size a
  hwx0_4 : ∀ i : grid0.Coords, EltTy.bits .f32 = 32 ∨ (Rect.block (s := S9x200x32) S9x200x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x32.size a ≤ S9x32.size a
  hwx0_5 : ∀ i : grid0.Coords, EltTy.bits .f32 = 32 ∨ (Rect.block (s := S9x32) S9x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S12544x400.size a ≤ S12544x400.size a
  hwx0_9 : ∀ i : grid0.Coords, EltTy.bits .bf16 = 32 ∨ (Rect.block (s := S12544x400) S12544x400.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S400.size a ≤ S400.size a
  hwx0_10 : ∀ i : grid0.Coords, EltTy.bits .f32 = 32 ∨ (Rect.block (s := S400) S400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400.size a ≤ S400.size a
  hwx0_11 : ∀ i : grid0.Coords, EltTy.bits .f32 = 32 ∨ (Rect.block (s := S400) S400.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S400.size a ≤ S400.size a
  hwx0_12 : ∀ i : grid0.Coords, EltTy.bits .f32 = 32 ∨ (Rect.block (s := S400) S400.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S400.size a ≤ S400.size a
  hwx0_13 : ∀ i : grid0.Coords, EltTy.bits .f32 = 32 ∨ (Rect.block (s := S400) S400.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S400x1.size a ≤ S400x1.size a
  hwx0_14 : ∀ i : grid0.Coords, EltTy.bits .f32 = 32 ∨ (Rect.block (s := S400x1) S400x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x1.size a ≤ S4096x1.size a
  hwx0_17 : ∀ i : grid0.Coords, EltTy.bits .f32 = 32 ∨ (Rect.block (s := S4096x1) S64x1.size (cc0_transform_17 i) (hinb0_17 i)).WholeWords (EltTy.packing .f32)

variable [Facts₀]

def gather_S100000x200_S4096x1_S4096x200_1_0_n_n_0_1_1200 : GatherDims S100000x200 S4096x1 S4096x200 where
  offsetDims := [1]
  collapsedSliceDims := [0]
  operandBatchingDims := []
  startIndicesBatchingDims := []
  startIndexMap := [0]
  indexVectorDim := 1
  sliceSizes := ![1, 200]
  wf := gather_S100000x200_S4096x1_S4096x200_1_0_n_n_0_1_1200_wf
def gather_S500x200_S4096x1_S4096x200_1_0_n_n_0_1_1200 : GatherDims S500x200 S4096x1 S4096x200 where
  offsetDims := [1]
  collapsedSliceDims := [0]
  operandBatchingDims := []
  startIndicesBatchingDims := []
  startIndexMap := [0]
  indexVectorDim := 1
  sliceSizes := ![1, 200]
  wf := gather_S500x200_S4096x1_S4096x200_1_0_n_n_0_1_1200_wf
def dot_S64x200_S200x32_S64x32_1_0_0_1_n_n : DotDims S64x200 S200x32 S64x32 where
  lhsContracting := [1]
  rhsContracting := [0]
  lhsNonContracting := [0]
  rhsNonContracting := [1]
  lhsBatch := []
  rhsBatch := []
  wf := dot_S64x200_S200x32_S64x32_1_0_0_1_n_n_wf
def dot_S64x12544_S12544x400_S64x400_1_0_0_1_n_n : DotDims S64x12544 S12544x400 S64x400 where
  lhsContracting := [1]
  rhsContracting := [0]
  lhsNonContracting := [0]
  rhsNonContracting := [1]
  lhsBatch := []
  rhsBatch := []
  wf := dot_S64x12544_S12544x400_S64x400_1_0_0_1_n_n_wf
def dot_S64x400_S400x1_S64x1_1_0_0_1_n_n : DotDims S64x400 S400x1 S64x1 where
  lhsContracting := [1]
  rhsContracting := [0]
  lhsNonContracting := [0]
  rhsNonContracting := [1]
  lhsBatch := []
  rhsBatch := []
  wf := dot_S64x400_S400x1_S64x1_1_0_0_1_n_n_wf

abbrev win0_0 : Pipeline.Window sig grid0 :=
  Pipeline.Window.ofSpec (Memref.whole main_v14) S64x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S9x200x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S9x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S12544x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S400.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S400.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg18) S400.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v42) S400x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg22) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg23) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v43) S64x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4096 : Shape := ⟨1, ![4096]⟩
abbrev S100000x200 : Shape := ⟨2, ![100000, 200]⟩
abbrev S500x200 : Shape := ⟨2, ![500, 200]⟩
abbrev S1 : Shape := ⟨1, ![1]⟩
abbrev S288x200 : Shape := ⟨2, ![288, 200]⟩
abbrev S288 : Shape := ⟨1, ![288]⟩
abbrev S32 : Shape := ⟨1, ![32]⟩
abbrev S400x12544 : Shape := ⟨2, ![400, 12544]⟩
abbrev S400 : Shape := ⟨1, ![400]⟩
abbrev S1x400 : Shape := ⟨2, ![1, 400]⟩
abbrev S_ : Shape := ⟨0, ![]⟩
abbrev S4096x1 : Shape := ⟨2, ![4096, 1]⟩
abbrev S4096x200 : Shape := ⟨2, ![4096, 200]⟩
abbrev S4096x400 : Shape := ⟨2, ![4096, 400]⟩
abbrev S200x288 : Shape := ⟨2, ![200, 288]⟩
abbrev S4096x288 : Shape := ⟨2, ![4096, 288]⟩
abbrev S1x288 : Shape := ⟨2, ![1, 288]⟩
abbrev S4096x32x9 : Shape := ⟨3, ![4096, 32, 9]⟩
abbrev S4096x392 : Shape := ⟨2, ![4096, 392]⟩
abbrev S4096x392x1 : Shape := ⟨3, ![4096, 392, 1]⟩
abbrev S4096x392x9 : Shape := ⟨3, ![4096, 392, 9]⟩
abbrev S4096x32x392 : Shape := ⟨3, ![4096, 32, 392]⟩
abbrev S1x32x1 : Shape := ⟨3, ![1, 32, 1]⟩
abbrev S4096x12544 : Shape := ⟨2, ![4096, 12544]⟩
abbrev S12544x400 : Shape := ⟨2, ![12544, 400]⟩
abbrev S400x1 : Shape := ⟨2, ![400, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S100000x200, .f32⟩
  | 4 => ⟨S500x200, .f32⟩
  | 5 => ⟨S1, .f32⟩
  | 6 => ⟨S1, .f32⟩
  | 7 => ⟨S1, .f32⟩
  | 8 => ⟨S1, .f32⟩
  | 9 => ⟨S288x200, .f32⟩
  | 10 => ⟨S288, .f32⟩
  | 11 => ⟨S32, .f32⟩
  | 12 => ⟨S32, .f32⟩
  | 13 => ⟨S32, .f32⟩
  | 14 => ⟨S32, .f32⟩
  | 15 => ⟨S400x12544, .f32⟩
  | 16 => ⟨S400, .f32⟩
  | 17 => ⟨S400, .f32⟩
  | 18 => ⟨S400, .f32⟩
  | 19 => ⟨S400, .f32⟩
  | 20 => ⟨S400, .f32⟩
  | 21 => ⟨S1x400, .f32⟩
  | 22 => ⟨S1, .f32⟩
  | 23 => ⟨S1, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x200, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x200, .f32⟩
  | 42 => ⟨S4096x400, .f32⟩
  | 43 => ⟨S_, .f32⟩
  | 44 => ⟨S4096x400, .f32⟩
  | 45 => ⟨S4096x400, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S4096x400, .f32⟩
  | 53 => ⟨S4096x400, .f32⟩
  | 54 => ⟨S_, .f32⟩
  | 55 => ⟨S4096x400, .f32⟩
  | 56 => ⟨S4096x400, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4096x200, .f32⟩
  | 66 => ⟨S200x288, .f32⟩
  | 67 => ⟨S4096x288, .f32⟩
  | 68 => ⟨S1x288, .f32⟩
  | 69 => ⟨S4096x288, .f32⟩
  | 70 => ⟨S4096x288, .f32⟩
  | 71 => ⟨S4096x32x9, .f32⟩
  | 72 => ⟨S4096x392, .f32⟩
  | 73 => ⟨S4096x392, .f32⟩
  | 74 => ⟨S4096x392, .f32⟩
  | 75 => ⟨S4096x392, .f32⟩
  | 76 => ⟨S4096x392, .f32⟩
  | 77 => ⟨S4096x392, .f32⟩
  | 78 => ⟨S4096x392, .f32⟩
  | 79 => ⟨S4096x392, .f32⟩
  | 80 => ⟨S4096x392, .f32⟩
  | 81 => ⟨S4096x392x1, .f32⟩
  | 82 => ⟨S4096x392x1, .f32⟩
  | 83 => ⟨S4096x392x1, .f32⟩
  | 84 => ⟨S4096x392x1, .f32⟩
  | 85 => ⟨S4096x392x1, .f32⟩
  | 86 => ⟨S4096x392x1, .f32⟩
  | 87 => ⟨S4096x392x1, .f32⟩
  | 88 => ⟨S4096x392x1, .f32⟩
  | 89 => ⟨S4096x392x1, .f32⟩
  | 90 => ⟨S4096x392x9, .f32⟩
  | 91 => ⟨S4096x32x392, .f32⟩
  | 92 => ⟨S_, .f32⟩
  | 93 => ⟨S32, .f32⟩
  | 94 => ⟨S32, .f32⟩
  | 95 => ⟨S32, .f32⟩
  | 96 => ⟨S32, .f32⟩
  | 97 => ⟨S1x32x1, .f32⟩
  | 98 => ⟨S4096x32x392, .f32⟩
  | 99 => ⟨S4096x32x392, .f32⟩
  | 100 => ⟨S1x32x1, .f32⟩
  | 101 => ⟨S4096x32x392, .f32⟩
  | 102 => ⟨S4096x32x392, .f32⟩
  | 103 => ⟨S1x32x1, .f32⟩
  | 104 => ⟨S4096x32x392, .f32⟩
  | 105 => ⟨S4096x32x392, .f32⟩
  | 106 => ⟨S4096x12544, .f32⟩
  | 107 => ⟨S12544x400, .f32⟩
  | 108 => ⟨S4096x400, .f32⟩
  | 109 => ⟨S1x400, .f32⟩
  | 110 => ⟨S4096x400, .f32⟩
  | 111 => ⟨S4096x400, .f32⟩
  | 112 => ⟨S1x400, .f32⟩
  | 113 => ⟨S4096x400, .f32⟩
  | 114 => ⟨S4096x400, .f32⟩
  | 115 => ⟨S_, .f32⟩
  | 116 => ⟨S400, .f32⟩
  | 117 => ⟨S400, .f32⟩
  | 118 => ⟨S400, .f32⟩
  | 119 => ⟨S400, .f32⟩
  | 120 => ⟨S1x400, .f32⟩
  | 121 => ⟨S4096x400, .f32⟩
  | 122 => ⟨S4096x400, .f32⟩
  | 123 => ⟨S1x400, .f32⟩
  | 124 => ⟨S4096x400, .f32⟩
  | 125 => ⟨S4096x400, .f32⟩
  | 126 => ⟨S400x1, .f32⟩
  | 127 => ⟨S4096x1, .f32⟩
  | _ => ⟨S4096, .i32⟩

abbrev hbmTy0_1 (i : Nat) : BufTy := match i % 128 with
  | 0 => ⟨S1x1, .f32⟩
  | 1 => ⟨S4096x1, .f32⟩
  | 2 => ⟨S4096x1, .f32⟩
  | 3 => ⟨S4096x1, .f32⟩
  | 4 => ⟨S1x1, .f32⟩
  | 5 => ⟨S4096x1, .f32⟩
  | 6 => ⟨S4096x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_6 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x200_S4096x200_S4096x400_d1 : Shape.Concatenates [S4096x200, S4096x200] S4096x400 1
  shapeCasts_S1_S_ : S1.ShapeCasts S_
  bcast_S_S4096x400 : S_.BroadcastsInDim S4096x400 (![] : Fin 0 → Fin S4096x400.rank)
  transposes_S288x200_S200x288_1_0 : S288x200.Transposes [1, 0] S200x288
  bcast_S288_S1x288_1 : S288.BroadcastsInDim S1x288 (![1] : Fin 1 → Fin S1x288.rank)
  bcast_S1x288_S4096x288_0_1 : S1x288.BroadcastsInDim S4096x288 (![0, 1] : Fin 2 → Fin S4096x288.rank)
  shapeCasts_S4096x288_S4096x32x9 : S4096x288.ShapeCasts S4096x32x9
  slices_S4096x400_S4096x392_0_0 : S4096x400.Slices ![0, 0] S4096x392
  slices_S4096x400_S4096x392_0_1 : S4096x400.Slices ![0, 1] S4096x392
  slices_S4096x400_S4096x392_0_2 : S4096x400.Slices ![0, 2] S4096x392
  slices_S4096x400_S4096x392_0_3 : S4096x400.Slices ![0, 3] S4096x392
  slices_S4096x400_S4096x392_0_4 : S4096x400.Slices ![0, 4] S4096x392
  slices_S4096x400_S4096x392_0_5 : S4096x400.Slices ![0, 5] S4096x392
  slices_S4096x400_S4096x392_0_6 : S4096x400.Slices ![0, 6] S4096x392
  slices_S4096x400_S4096x392_0_7 : S4096x400.Slices ![0, 7] S4096x392
  slices_S4096x400_S4096x392_0_8 : S4096x400.Slices ![0, 8] S4096x392
  bcast_S4096x392_S4096x392x1_0_1 : S4096x392.BroadcastsInDim S4096x392x1 (![0, 1] : Fin 2 → Fin S4096x392x1.rank)
  concatenates_S4096x392x1_S4096x392x1_S4096x392x1_S4096x392x1_S4096x392x1_S4096x392x1_S4096x392x1_S4096x392x1_S4096x392x1_S4096x392x9_d2 : Shape.Concatenates [S4096x392x1, S4096x392x1, S4096x392x1, S4096x392x1, S4096x392x1, S4096x392x1, S4096x392x1, S4096x392x1, S4096x392x1] S4096x392x9 2
  bcast_S_S32 : S_.BroadcastsInDim S32 (![] : Fin 0 → Fin S32.rank)
  bcast_S32_S1x32x1_1 : S32.BroadcastsInDim S1x32x1 (![1] : Fin 1 → Fin S1x32x1.rank)
  bcast_S1x32x1_S4096x32x392_0_1_2 : S1x32x1.BroadcastsInDim S4096x32x392 (![0, 1, 2] : Fin 3 → Fin S4096x32x392.rank)
  shapeCasts_S4096x32x392_S4096x12544 : S4096x32x392.ShapeCasts S4096x12544
  transposes_S400x12544_S12544x400_1_0 : S400x12544.Transposes [1, 0] S12544x400
  bcast_S400_S1x400_1 : S400.BroadcastsInDim S1x400 (![1] : Fin 1 → Fin S1x400.rank)
  bcast_S1x400_S4096x400_0_1 : S1x400.BroadcastsInDim S4096x400 (![0, 1] : Fin 2 → Fin S4096x400.rank)
  bcast_S_S400 : S_.BroadcastsInDim S400 (![] : Fin 0 → Fin S400.rank)
  transposes_S1x400_S400x1_1_0 : S1x400.Transposes [1, 0] S400x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S100000x200_S4096x1_S4096x200_1_0_n_n_0_1_1200_wf : GatherDims.WF S100000x200 S4096x1 S4096x200 [1] [0] [] [0] [] 1 ![1, 200]
  gather_S500x200_S4096x1_S4096x200_1_0_n_n_0_1_1200_wf : GatherDims.WF S500x200 S4096x1 S4096x200 [1] [0] [] [0] [] 1 ![1, 200]
  dot_S4096x200_S200x288_S4096x288_1_0_0_1_n_n_wf : DotDims.WF S4096x200 S200x288 S4096x288 [1] [0] [0] [1] [] []
  dot_S4096x32x9_S4096x392x9_S4096x32x392_2_2_1_1_0_0_wf : DotDims.WF S4096x32x9 S4096x392x9 S4096x32x392 [2] [2] [1] [1] [0] [0]
  dot_S4096x12544_S12544x400_S4096x400_1_0_0_1_n_n_wf : DotDims.WF S4096x12544 S12544x400 S4096x400 [1] [0] [0] [1] [] []
  dot_S4096x400_S400x1_S4096x1_1_0_0_1_n_n_wf : DotDims.WF S4096x400 S400x1 S4096x1 [1] [0] [0] [1] [] []

variable [Facts₀]

def gather_S100000x200_S4096x1_S4096x200_1_0_n_n_0_1_1200 : GatherDims S100000x200 S4096x1 S4096x200 where
  offsetDims := [1]
  collapsedSliceDims := [0]
  operandBatchingDims := []
  startIndicesBatchingDims := []
  startIndexMap := [0]
  indexVectorDim := 1
  sliceSizes := ![1, 200]
  wf := gather_S100000x200_S4096x1_S4096x200_1_0_n_n_0_1_1200_wf
def gather_S500x200_S4096x1_S4096x200_1_0_n_n_0_1_1200 : GatherDims S500x200 S4096x1 S4096x200 where
  offsetDims := [1]
  collapsedSliceDims := [0]
  operandBatchingDims := []
  startIndicesBatchingDims := []
  startIndexMap := [0]
  indexVectorDim := 1
  sliceSizes := ![1, 200]
  wf := gather_S500x200_S4096x1_S4096x200_1_0_n_n_0_1_1200_wf
def dot_S4096x200_S200x288_S4096x288_1_0_0_1_n_n : DotDims S4096x200 S200x288 S4096x288 where
  lhsContracting := [1]
  rhsContracting := [0]
  lhsNonContracting := [0]
  rhsNonContracting := [1]
  lhsBatch := []
  rhsBatch := []
  wf := dot_S4096x200_S200x288_S4096x288_1_0_0_1_n_n_wf
def dot_S4096x32x9_S4096x392x9_S4096x32x392_2_2_1_1_0_0 : DotDims S4096x32x9 S4096x392x9 S4096x32x392 where
  lhsContracting := [2]
  rhsContracting := [2]
  lhsNonContracting := [1]
  rhsNonContracting := [1]
  lhsBatch := [0]
  rhsBatch := [0]
  wf := dot_S4096x32x9_S4096x392x9_S4096x32x392_2_2_1_1_0_0_wf
def dot_S4096x12544_S12544x400_S4096x400_1_0_0_1_n_n : DotDims S4096x12544 S12544x400 S4096x400 where
  lhsContracting := [1]
  rhsContracting := [0]
  lhsNonContracting := [0]
  rhsNonContracting := [1]
  lhsBatch := []
  rhsBatch := []
  wf := dot_S4096x12544_S12544x400_S4096x400_1_0_0_1_n_n_wf
def dot_S4096x400_S400x1_S4096x1_1_0_0_1_n_n : DotDims S4096x400 S400x1 S4096x1 where
  lhsContracting := [1]
  rhsContracting := [0]
  lhsNonContracting := [0]
  rhsNonContracting := [1]
  lhsBatch := []
  rhsBatch := []
  wf := dot_S4096x400_S400x1_S4096x1_1_0_0_1_n_n_wf

class Facts : Prop extends Facts₀ where

variable [Facts]
-- ==== Proof.Body.lean ====
/-
  The kernel body as one function of its seventeen input blocks.  One grid point works on 64 batch rows:
  `xn` is the block of stacked embeddings after the folded first batch norm, `rb` the block of relation
  embeddings; the scratch accumulator starts at zero (`acc0`) and tap `j` adds the outer product of that tap's
  filter column with the window of `xn` shifted by `j` (`acc1` … `acc9`); `hid` is the second batch norm's
  input after the dense layer, `outv` the block of results.  Each step is the kernel's own arithmetic term for
  the value it stores; the taps' weights are the nine slices of the stacked tap matrices.
-/
import proofs.«142079_j17248588661540_1_alg».proof.Proof.Gen.KernelIdeal.Skeleton
import Idealize.ShloMosaic.Lib.Pipeline.Value

noncomputable section

namespace Cert.KernelIdeal.Body

open Cert.KernelIdeal Cert.KernelIdeal.Gen Idealize.ShloMosaic Idealize.ShloMosaic.TcCoe

variable {F : FTy → Type} [FloatOps F]

theorem tapW_inb (j : Fin 9) : ∀ a : Fin 3, (![j.val, 0, 0] : Fin 3 → Nat) a + S1x200x32.size a ≤ S9x200x32.size a := by
  intro a; have := j.isLt; fin_cases a <;> simp [Shape.size] <;> omega

theorem tapB_inb (j : Fin 9) : ∀ a : Fin 2, (![j.val, 0] : Fin 2 → Nat) a + S1x32.size a ≤ S9x32.size a := by
  intro a; have := j.isLt; fin_cases a <;> simp [Shape.size] <;> omega

/-- Tap `j`'s 200×32 weight slice of the stacked tap matrices. -/
def tapW (x4 : Vec F S9x200x32 .f32) (j : Fin 9) : Vec F S1x200x32 .f32 :=
  View.ld x4 (Rect.unit ![j.val, 0, 0] S1x200x32.size (tapW_inb j))

/-- Tap `j`'s row of the stacked tap biases. -/
def tapB (x5 : Vec F S9x32 .f32) (j : Fin 9) : Vec F S1x32 .f32 :=
  View.ld x5 (Rect.unit ![j.val, 0] S1x32.size (tapB_inb j))

variable (x0 : Vec F S64x400 .f32) (x1 : Vec F S64x200 .f32) (x2 x3 : Vec F S1 .f32) (x4 : Vec F S9x200x32 .f32)
  (x5 : Vec F S9x32 .f32) (x6 x7 x8 : Vec F S32 .f32) (x9 : Vec F S12544x400 .bf16) (x10 x11 x12 x13 : Vec F S400 .f32)
  (x14 : Vec F S400x1 .f32) (x15 x16 : Vec F S1 .f32)

/-- The block of embeddings after the first batch norm, folded to a scale and a shift. -/
def xn : FVec F S64x400 .f32 := k0_pay2 x0 x2 x3
/-- The block of relation embeddings. -/
def rb : FVec F S64x200 .f32 := k0_pay3 x1
def acc0 : FVec F S64x32x392 .f32 := k0_pay4
def acc1 : FVec F S64x32x392 .f32 := k0_pay6 (k0_pay5 x0 x2 x3 x1 (tapW x4 0) (tapB x5 0) acc0)
def acc2 : FVec F S64x32x392 .f32 := k0_pay7 (xn x0 x2 x3) (rb x1) (tapW x4 1) (tapB x5 1) (acc1 x0 x1 x2 x3 x4 x5)
def acc3 : FVec F S64x32x392 .f32 := k0_pay9 (k0_pay8 (xn x0 x2 x3) (rb x1) (tapW x4 2) (tapB x5 2) (acc2 x0 x1 x2 x3 x4 x5))
def acc4 : FVec F S64x32x392 .f32 := k0_pay10 (xn x0 x2 x3) (rb x1) (tapW x4 3) (tapB x5 3) (acc3 x0 x1 x2 x3 x4 x5)
def acc5 : FVec F S64x32x392 .f32 := k0_pay13 (acc4 x0 x1 x2 x3 x4 x5) (k0_pay11 (xn x0 x2 x3)) (k0_pay12 (rb x1) (tapW x4 4) (tapB x5 4))
def acc6 : FVec F S64x32x392 .f32 := k0_pay14 (xn x0 x2 x3) (rb x1) (tapW x4 5) (tapB x5 5) (acc5 x0 x1 x2 x3 x4 x5)
def acc7 : FVec F S64x32x392 .f32 := k0_pay17 (k0_pay15 (rb x1) (tapW x4 6) (tapB x5 6)) (k0_pay16 (xn x0 x2 x3)) (acc6 x0 x1 x2 x3 x4 x5)
def acc8 : FVec F S64x32x392 .f32 := k0_pay18 (xn x0 x2 x3) (rb x1) (tapW x4 7) (tapB x5 7) (acc7 x0 x1 x2 x3 x4 x5)
def acc9 : FVec F S64x32x392 .f32 := k0_pay20 (xn x0 x2 x3) (k0_pay19 (rb x1) (tapW x4 8) (tapB x5 8)) (acc8 x0 x1 x2 x3 x4 x5)
/-- After the per-channel batch norm, the flattening and the dense layer: the second batch norm's centred input. -/
def hid : FVec F S64x400 .f32 := k0_pay21 x6 x7 x8 (acc9 x0 x1 x2 x3 x4 x5) x9 x10 x11
/-- The block of results. -/
def outv : FVec F S64x1 .f32 := k0_pay1 (hid x0 x1 x2 x3 x4 x5 x6 x7 x8 x9 x10 x11) x12 x13 x14 x15 x16

end Cert.KernelIdeal.Body

end
-- ==== Proof.LibReadBack.lean ====
/-
  A buffer written whole several times and then read whole holds the LAST payload, whatever the earlier
  stores were: the read of a list of whole-buffer pieces through the whole-buffer rectangle is the head
  piece's payload.  (The one-piece case is in the library; a scratch that is overwritten again and again and read
  back between the writes needs the list form.)
-/
import Idealize.ShloMosaic.Lib.Pipeline.Value

noncomputable section

namespace Idealize.ShloMosaic.View

variable {Val : EltTy → Type} {S : Shape} {e : EltTy}

/-- Reading a buffer whole after whole-buffer stores, the newest first in the list, gives the newest payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Piece.lean ====
/-
  What one grid point leaves in the result block.  The body's only store into the result buffer covers the
  whole block, so the block is that store's value; the scratch accumulator is written whole ten times and read
  back whole between the writes, so every read sees the value written last before it.  Together: the block is
  the composed body function of the seventeen input blocks.
-/
import proofs.«142079_j17248588661540_1_alg».proof.Proof.Gen.KernelIdeal.Frame
import proofs.«142079_j17248588661540_1_alg».proof.Proof.Body
import proofs.«142079_j17248588661540_1_alg».proof.Proof.LibReadBack

set_option maxRecDepth 16384

noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Body
variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 2000000 in
/-- The result block after the body at a point is the body function of the point's input blocks. -/
theorem result_block (c : Dev nD) (i : grid0.Coords) (arg1 : Memref sig .tc .vmem S64x400 .f32) (harg1 : arg1.IsWhole) (arg2 : Memref sig .tc .vmem S64x200 .f32) (harg2 : arg2.IsWhole) (arg3 : Memref sig .tc .vmem S1 .f32) (harg3 : arg3.IsWhole) (arg4 : Memref sig .tc .vmem S1 .f32) (harg4 : arg4.IsWhole) (arg5 : Memref sig .tc .vmem S9x200x32 .f32) (harg5 : arg5.IsWhole) (arg6 : Memref sig .tc .vmem S9x32 .f32) (harg6 : arg6.IsWhole) (arg7 : Memref sig .tc .vmem S32 .f32) (harg7 : arg7.IsWhole) (arg8 : Memref sig .tc .vmem S32 .f32) (harg8 : arg8.IsWhole) (arg9 : Memref sig .tc .vmem S32 .f32) (harg9 : arg9.IsWhole) (arg10 : Memref sig .tc .vmem S12544x400 .bf16) (harg10 : arg10.IsWhole) (arg11 : Memref sig .tc .vmem S400 .f32) (harg11 : arg11.IsWhole) (arg12 : Memref sig .tc .vmem S400 .f32) (harg12 : arg12.IsWhole) (arg13 : Memref sig .tc .vmem S400 .f32) (harg13 : arg13.IsWhole) (arg14 : Memref sig .tc .vmem S400 .f32) (harg14 : arg14.IsWhole) (arg15 : Memref sig .tc .vmem S400x1 .f32) (harg15 : arg15.IsWhole) (arg16 : Memref sig .tc .vmem S1 .f32) (harg16 : arg16.IsWhole) (arg17 : Memref sig .tc .vmem S1 .f32) (harg17 : arg17.IsWhole) (arg18 : Memref sig .tc .vmem S64x1 .f32) (harg18 : arg18.IsWhole) (arg19 : Memref sig .tc .vmem S64x32x392 .f32) (harg19 : arg19.IsWhole)
    (x0 : Vec F S64x400 .f32) (x1 : Vec F S64x200 .f32) (x2 : Vec F S1 .f32) (x3 : Vec F S1 .f32) (x4 : Vec F S9x200x32 .f32) (x5 : Vec F S9x32 .f32) (x6 : Vec F S32 .f32) (x7 : Vec F S32 .f32) (x8 : Vec F S32 .f32) (x9 : Vec F S12544x400 .bf16) (x10 : Vec F S400 .f32) (x11 : Vec F S400 .f32) (x12 : Vec F S400 .f32) (x13 : Vec F S400 .f32) (x14 : Vec F S400x1 .f32) (x15 : Vec F S1 .f32) (x16 : Vec F S1 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = outv (F := F) x0 x1 x2 x3 x4 x5 x6 x7 x8 x9 x10 x11 x12 x13 x14 x15 x16 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  unfold kernelRun0_A
  dsimp only
  sl_unfold_words
  rw [View.canon_unit_zero zeros2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S64x400) zeros2, View.ld_unit_zero (S := S64x200) zeros2, View.ld_unit_zero (S := S1) zeros1, View.ld_unit_zero (S := S32) zeros1, View.ld_unit_zero (S := S400) zeros1, View.ld_unit_zero (S := S400x1) zeros2, View.ld_unit_zero (S := S12544x400) zeros2,
    View.readCov_cons_unit_zero (S := S64x32x392) _ zeros3]
  rfl
end Cert.KernelIdeal.Gen
end
-- ==== Proof.Blocks.lean ====
/-
  The blocks the body sees at a grid point, read at an index of the arrays the region finds.  Point `t` of the
  64 points works on batch rows `64 t … 64 t + 63`: the blocks of the two batched inputs (the stacked embeddings
  and the relation rows) and of the result are those rows of their arrays; every other input is staged whole at
  every point, so its block is the array itself.
-/
import proofs.«142079_j17248588661540_1_alg».proof.Proof.Gen.KernelIdeal.Value
import Idealize.ShloMosaic.Lib.ValueIdx

noncomputable section
namespace Cert.KernelIdeal.Blocks
open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The batched windows' block index at point `t` is `(t, 0)`; the others' is zero on every axis. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0 :=
  (by decide +kernel : ∀ t : Fin grid0.N, _)

/-- Batch row `64 t + p`: row `p` of point `t`. -/
def rowAt (t : Fin cfg0.N) (p : Fin 64) : Fin 4096 := ⟨64 * t.val + p.val, by have h1 : t.val < 64 := t.isLt; have := p.isLt; omega⟩

/-- Row `p` of point `t`'s block of the stacked embeddings is row `64 t + p` of the array. -/
theorem blk0_apply (c : Dev nD) (t : Fin cfg0.N) (p : Fin 64) (q : Fin 400) :
    iblk m c 0 t (ix2 p q) = V m c main_v14 (ix2 (rowAt t p) q) := by
  have hb : (rowAt t p).val = 64 * t.val + p.val := rfl
  generalize rowAt t p = b at hb ⊢
  obtain ⟨e0, e1, -, -, -, -⟩ := idx_rows t
  unfold iblk
  show V m c main_v14 (((cfg0.win 0).blk t).view.emb (ix2 p q)) = _
  have h : ((cfg0.win 0).blk t).view.emb (ix2 p q) = ix2 b q := by
    funext a; apply Fin.ext
    match a with
    | ⟨0, _⟩ => show win0_0.index t (0 : Fin 2) * 64 + 1 * p.val = b.val; omega
    | ⟨1, _⟩ => show win0_0.index t (1 : Fin 2) * 400 + 1 * q.val = q.val; omega
  rw [h]

/-- Row `p` of point `t`'s block of the relation rows is row `64 t + p` of the array. -/
theorem blk1_apply (c : Dev nD) (t : Fin cfg0.N) (p : Fin 64) (d : Fin 200) :
    iblk m c 1 t (ix2 p d) = V m c main_v21 (ix2 (rowAt t p) d) := by
  have hb : (rowAt t p).val = 64 * t.val + p.val := rfl
  generalize rowAt t p = b at hb ⊢
  obtain ⟨-, -, e0, e1, -, -⟩ := idx_rows t
  unfold iblk
  show V m c main_v21 (((cfg0.win 1).blk t).view.emb (ix2 p d)) = _
  have h : ((cfg0.win 1).blk t).view.emb (ix2 p d) = ix2 b d := by
    funext a; apply Fin.ext
    match a with
    | ⟨0, _⟩ => show win0_1.index t (0 : Fin 2) * 64 + 1 * p.val = b.val; omega
    | ⟨1, _⟩ => show win0_1.index t (1 : Fin 2) * 200 + 1 * d.val = d.val; omega
  rw [h]

theorem idx_w2 : ∀ t : Fin cfg0.N, win0_2.index t (0 : Fin 1) = 0 :=
  (by decide +kernel : ∀ t : Fin grid0.N, _)

/-- Window 2 is staged whole: its block at any point is its array. -/
theorem blk2_apply (c : Dev nD) (t : Fin cfg0.N) (y : S1.Idx) : iblk m c 2 t y = V m c main_v25 y := by
  have e := idx_w2 t
  unfold iblk
  show V m c main_v25 (((cfg0.win 2).blk t).view.emb y) = _
  have h : ((cfg0.win 2).blk t).view.emb y = y := by
    funext a; apply Fin.ext
    match a with
    | ⟨0, _⟩ => show win0_2.index t (0 : Fin 1) * 1 + 1 * (y 0).val = (y 0).val; omega
  rw [h]

theorem idx_w3 : ∀ t : Fin cfg0.N, win0_3.index t (0 : Fin 1) = 0 :=
  (by decide +kernel : ∀ t : Fin grid0.N, _)

/-- Window 3 is staged whole: its block at any point is its array. -/
theorem blk3_apply (c : Dev nD) (t : Fin cfg0.N) (y : S1.Idx) : iblk m c 3 t y = V m c main_v27 y := by
  have e := idx_w3 t
  unfold iblk
  show V m c main_v27 (((cfg0.win 3).blk t).view.emb y) = _
  have h : ((cfg0.win 3).blk t).view.emb y = y := by
    funext a; apply Fin.ext
    match a with
    | ⟨0, _⟩ => show win0_3.index t (0 : Fin 1) * 1 + 1 * (y 0).val = (y 0).val; omega
  rw [h]

theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 4 is staged whole: its block at any point is its array. -/
theorem blk4_apply (c : Dev nD) (t : Fin cfg0.N) (y : S9x200x32.Idx) : iblk m c 4 t y = V m c main_v37 y := by
  have e := idx_w4 t
  unfold iblk
  show V m c main_v37 (((cfg0.win 4).blk t).view.emb y) = _
  have h : ((cfg0.win 4).blk t).view.emb y = y := by
    funext a; apply Fin.ext
    match a with
    | ⟨0, _⟩ => show win0_4.index t (0 : Fin 3) * 9 + 1 * (y 0).val = (y 0).val; omega
    | ⟨1, _⟩ => show win0_4.index t (1 : Fin 3) * 200 + 1 * (y 1).val = (y 1).val; omega
    | ⟨2, _⟩ => show win0_4.index t (2 : Fin 3) * 32 + 1 * (y 2).val = (y 2).val; omega
  rw [h]

theorem idx_w5 : ∀ t : Fin cfg0.N, win0_5.index t (0 : Fin 2) = 0 ∧ win0_5.index t (1 : Fin 2) = 0 :=
  (by decide +kernel : ∀ t : Fin grid0.N, _)

/-- Window 5 is staged whole: its block at any point is its array. -/
theorem blk5_apply (c : Dev nD) (t : Fin cfg0.N) (y : S9x32.Idx) : iblk m c 5 t y = V m c main_v39 y := by
  have e := idx_w5 t
  unfold iblk
  show V m c main_v39 (((cfg0.win 5).blk t).view.emb y) = _
  have h : ((cfg0.win 5).blk t).view.emb y = y := by
    funext a; apply Fin.ext
    match a with
    | ⟨0, _⟩ => show win0_5.index t (0 : Fin 2) * 9 + 1 * (y 0).val = (y 0).val; omega
    | ⟨1, _⟩ => show win0_5.index t (1 : Fin 2) * 32 + 1 * (y 1).val = (y 1).val; omega
  rw [h]

theorem idx_w6 : ∀ t : Fin cfg0.N, win0_6.index t (0 : Fin 1) = 0 :=
  (by decide +kernel : ∀ t : Fin grid0.N, _)

/-- Window 6 is staged whole: its block at any point is its array. -/
theorem blk6_apply (c : Dev nD) (t : Fin cfg0.N) (y : S32.Idx) : iblk m c 6 t y = V m c main_arg13 y := by
  have e := idx_w6 t
  unfold iblk
  show V m c main_arg13 (((cfg0.win 6).blk t).view.emb y) = _
  have h : ((cfg0.win 6).blk t).view.emb y = y := by
    funext a; apply Fin.ext
    match a with
    | ⟨0, _⟩ => show win0_6.index t (0 : Fin 1) * 32 + 1 * (y 0).val = (y 0).val; omega
  rw [h]

theorem idx_w7 : ∀ t : Fin cfg0.N, win0_7.index t (0 : Fin 1) = 0 :=
  (by decide +kernel : ∀ t : Fin grid0.N, _)

/-- Window 7 is staged whole: its block at any point is its array. -/
theorem blk7_apply (c : Dev nD) (t : Fin cfg0.N) (y : S32.Idx) : iblk m c 7 t y = V m c main_v31 y := by
  have e := idx_w7 t
  unfold iblk
  show V m c main_v31 (((cfg0.win 7).blk t).view.emb y) = _
  have h : ((cfg0.win 7).blk t).view.emb y = y := by
    funext a; apply Fin.ext
    match a with
    | ⟨0, _⟩ => show win0_7.index t (0 : Fin 1) * 32 + 1 * (y 0).val = (y 0).val; omega
  rw [h]

theorem idx_w8 : ∀ t : Fin cfg0.N, win0_8.index t (0 : Fin 1) = 0 :=
  (by decide +kernel : ∀ t : Fin grid0.N, _)

/-- Window 8 is staged whole: its block at any point is its array. -/
theorem blk8_apply (c : Dev nD) (t : Fin cfg0.N) (y : S32.Idx) : iblk m c 8 t y = V m c main_arg12 y := by
  have e := idx_w8 t
  unfold iblk
  show V m c main_arg12 (((cfg0.win 8).blk t).view.emb y) = _
  have h : ((cfg0.win 8).blk t).view.emb y = y := by
    funext a; apply Fin.ext
    match a with
    | ⟨0, _⟩ => show win0_8.index t (0 : Fin 1) * 32 + 1 * (y 0).val = (y 0).val; omega
  rw [h]

theorem idx_w9 : ∀ t : Fin cfg0.N, win0_9.index t (0 : Fin 2) = 0 ∧ win0_9.index t (1 : Fin 2) = 0 :=
  (by decide +kernel : ∀ t : Fin grid0.N, _)

/-- Window 9 is staged whole: its block at any point is its array. -/
theorem blk9_apply (c : Dev nD) (t : Fin cfg0.N) (y : S12544x400.Idx) : iblk m c 9 t y = V m c main_v41 y := by
  have e := idx_w9 t
  unfold iblk
  show V m c main_v41 (((cfg0.win 9).blk t).view.emb y) = _
  have h : ((cfg0.win 9).blk t).view.emb y = y := by
    funext a; apply Fin.ext
    match a with
    | ⟨0, _⟩ => show win0_9.index t (0 : Fin 2) * 12544 + 1 * (y 0).val = (y 0).val; omega
    | ⟨1, _⟩ => show win0_9.index t (1 : Fin 2) * 400 + 1 * (y 1).val = (y 1).val; omega
  rw [h]

theorem idx_w10 : ∀ t : Fin cfg0.N, win0_10.index t (0 : Fin 1) = 0 :=
  (by decide +kernel : ∀ t : Fin grid0.N, _)

/-- Window 10 is staged whole: its block at any point is its array. -/
theorem blk10_apply (c : Dev nD) (t : Fin cfg0.N) (y : S400.Idx) : iblk m c 10 t y = V m c main_arg16 y := by
  have e := idx_w10 t
  unfold iblk
  show V m c main_arg16 (((cfg0.win 10).blk t).view.emb y) = _
  have h : ((cfg0.win 10).blk t).view.emb y = y := by
    funext a; apply Fin.ext
    match a with
    | ⟨0, _⟩ => show win0_10.index t (0 : Fin 1) * 400 + 1 * (y 0).val = (y 0).val; omega
  rw [h]

theorem idx_w11 : ∀ t : Fin cfg0.N, win0_11.index t (0 : Fin 1) = 0 :=
  (by decide +kernel : ∀ t : Fin grid0.N, _)

/-- Window 11 is staged whole: its block at any point is its array. -/
theorem blk11_apply (c : Dev nD) (t : Fin cfg0.N) (y : S400.Idx) : iblk m c 11 t y = V m c main_arg19 y := by
  have e := idx_w11 t
  unfold iblk
  show V m c main_arg19 (((cfg0.win 11).blk t).view.emb y) = _
  have h : ((cfg0.win 11).blk t).view.emb y = y := by
    funext a; apply Fin.ext
    match a with
    | ⟨0, _⟩ => show win0_11.index t (0 : Fin 1) * 400 + 1 * (y 0).val = (y 0).val; omega
  rw [h]

theorem idx_w12 : ∀ t : Fin cfg0.N, win0_12.index t (0 : Fin 1) = 0 :=
  (by decide +kernel : ∀ t : Fin grid0.N, _)

/-- Window 12 is staged whole: its block at any point is its array. -/
theorem blk12_apply (c : Dev nD) (t : Fin cfg0.N) (y : S400.Idx) : iblk m c 12 t y = V m c main_v35 y := by
  have e := idx_w12 t
  unfold iblk
  show V m c main_v35 (((cfg0.win 12).blk t).view.emb y) = _
  have h : ((cfg0.win 12).blk t).view.emb y = y := by
    funext a; apply Fin.ext
    match a with
    | ⟨0, _⟩ => show win0_12.index t (0 : Fin 1) * 400 + 1 * (y 0).val = (y 0).val; omega
  rw [h]

theorem idx_w13 : ∀ t : Fin cfg0.N, win0_13.index t (0 : Fin 1) = 0 :=
  (by decide +kernel : ∀ t : Fin grid0.N, _)

/-- Window 13 is staged whole: its block at any point is its array. -/
theorem blk13_apply (c : Dev nD) (t : Fin cfg0.N) (y : S400.Idx) : iblk m c 13 t y = V m c main_arg18 y := by
  have e := idx_w13 t
  unfold iblk
  show V m c main_arg18 (((cfg0.win 13).blk t).view.emb y) = _
  have h : ((cfg0.win 13).blk t).view.emb y = y := by
    funext a; apply Fin.ext
    match a with
    | ⟨0, _⟩ => show win0_13.index t (0 : Fin 1) * 400 + 1 * (y 0).val = (y 0).val; omega
  rw [h]

theorem idx_w14 : ∀ t : Fin cfg0.N, win0_14.index t (0 : Fin 2) = 0 ∧ win0_14.index t (1 : Fin 2) = 0 :=
  (by decide +kernel : ∀ t : Fin grid0.N, _)

/-- Window 14 is staged whole: its block at any point is its array. -/
theorem blk14_apply (c : Dev nD) (t : Fin cfg0.N) (y : S400x1.Idx) : iblk m c 14 t y = V m c main_v42 y := by
  have e := idx_w14 t
  unfold iblk
  show V m c main_v42 (((cfg0.win 14).blk t).view.emb y) = _
  have h : ((cfg0.win 14).blk t).view.emb y = y := by
    funext a; apply Fin.ext
    match a with
    | ⟨0, _⟩ => show win0_14.index t (0 : Fin 2) * 400 + 1 * (y 0).val = (y 0).val; omega
    | ⟨1, _⟩ => show win0_14.index t (1 : Fin 2) * 1 + 1 * (y 1).val = (y 1).val; omega
  rw [h]

theorem idx_w15 : ∀ t : Fin cfg0.N, win0_15.index t (0 : Fin 1) = 0 :=
  (by decide +kernel : ∀ t : Fin grid0.N, _)

/-- Window 15 is staged whole: its block at any point is its array. -/
theorem blk15_apply (c : Dev nD) (t : Fin cfg0.N) (y : S1.Idx) : iblk m c 15 t y = V m c main_arg22 y := by
  have e := idx_w15 t
  unfold iblk
  show V m c main_arg22 (((cfg0.win 15).blk t).view.emb y) = _
  have h : ((cfg0.win 15).blk t).view.emb y = y := by
    funext a; apply Fin.ext
    match a with
    | ⟨0, _⟩ => show win0_15.index t (0 : Fin 1) * 1 + 1 * (y 0).val = (y 0).val; omega
  rw [h]

theorem idx_w16 : ∀ t : Fin cfg0.N, win0_16.index t (0 : Fin 1) = 0 :=
  (by decide +kernel : ∀ t : Fin grid0.N, _)

/-- Window 16 is staged whole: its block at any point is its array. -/
theorem blk16_apply (c : Dev nD) (t : Fin cfg0.N) (y : S1.Idx) : iblk m c 16 t y = V m c main_arg23 y := by
  have e := idx_w16 t
  unfold iblk
  show V m c main_arg23 (((cfg0.win 16).blk t).view.emb y) = _
  have h : ((cfg0.win 16).blk t).view.emb y = y := by
    funext a; apply Fin.ext
    match a with
    | ⟨0, _⟩ => show win0_16.index t (0 : Fin 1) * 1 + 1 * (y 0).val = (y 0).val; omega
  rw [h]

end Cert.KernelIdeal.Blocks
end
-- ==== Proof.Spec.lean ====
/-
  The network both programs compute, one batch row at a time, written once over plain coordinates.
  A row of the stacked entity embeddings `x` (400 wide, already batch-normalised) and a row of the relation
  embedding `rr` (200 wide) go through: the per-sample filter bank `taps` (32 channels of 9 taps, an affine
  map of `rr`), the valid 1×9 convolution `conv` of `x` with those filters (392 positions per channel),
  a per-channel batch norm, the dense layer over the 32·392 flattened features, a per-feature batch norm,
  and the scalar head `tanh(⟨h, w₂⟩ + b₂) + bias`.  Every operation is the exact one on the extended reals.
-/
import Mathlib.Data.EReal.Operations
import Mathlib.Algebra.BigOperators.Fin
import Idealize.ShloMosaic.PureOps.Ideal

noncomputable section

namespace Cert.HyperNet

open Idealize.ShloMosaic

/-- Row `o·9 + j` of the hypernetwork weight holds tap `j` of channel `o`. -/
def tapIx (o : Fin 32) (j : Fin 9) : Fin 288 := ⟨o.val * 9 + j.val, by have := o.isLt; have := j.isLt; omega⟩

/-- Tap `j` of the window at position `w` reads column `j + w`. -/
def winIx (w : Fin 392) (j : Fin 9) : Fin 400 := ⟨j.val + w.val, by have := w.isLt; have := j.isLt; omega⟩

/-- Channel and position of flattened feature `q = o·392 + w`. -/
def chanOf (q : Fin 12544) : Fin 32 := ⟨q.val / 392, by have := q.isLt; omega⟩
def posOf (q : Fin 12544) : Fin 392 := ⟨q.val % 392, Nat.mod_lt _ (by norm_num)⟩

/-- The per-sample filters: `k o j = ⟨rr, W₁ (o·9+j)⟩ + b₁ (o·9+j)`. -/
def taps (rr : Fin 200 → EReal) (W1 : Fin 288 → Fin 200 → EReal) (b1 : Fin 288 → EReal) (o : Fin 32) (j : Fin 9) : EReal :=
  (∑ d : Fin 200, rr d * W1 (tapIx o j) d) + b1 (tapIx o j)

/-- Valid 1×9 convolution of the row with channel `o`'s filter. -/
def conv (x : Fin 400 → EReal) (k : Fin 32 → Fin 9 → EReal) (o : Fin 32) (w : Fin 392) : EReal :=
  ∑ j : Fin 9, k o j * x (winIx w j)

/-- Inference-mode batch norm with the scale `s = γ / √(var + ε)` already formed. -/
def bnorm (z μ s β : EReal) : EReal := (z - μ) * s + β

/-- The dense layer over the flattened channels × positions. -/
def dense (y : Fin 32 → Fin 392 → EReal) (Wfc : Fin 400 → Fin 12544 → EReal) (bfc : Fin 400 → EReal) (n : Fin 400) : EReal :=
  (∑ q : Fin 12544, y (chanOf q) (posOf q) * Wfc n q) + bfc n

/-- The scalar head. -/
def head (h : Fin 400 → EReal) (w2 : Fin 400 → EReal) (b2 bias : EReal) : EReal :=
  Ideal.tanh ((∑ n : Fin 400, h n * w2 n) + b2) + bias

/-- One batch row of the network. -/
def rowOut (x : Fin 400 → EReal) (rr : Fin 200 → EReal)
    (W1 : Fin 288 → Fin 200 → EReal) (b1 : Fin 288 → EReal) (m1 s1 be1 : Fin 32 → EReal)
    (Wfc : Fin 400 → Fin 12544 → EReal) (bfc m2 s2 be2 : Fin 400 → EReal)
    (w2 : Fin 400 → EReal) (b2 bias : EReal) : EReal :=
  head (fun n => bnorm (dense (fun o w => bnorm (conv x (taps rr W1 b1) o w) (m1 o) (s1 o) (be1 o)) Wfc bfc n)
    (m2 n) (s2 n) (be2 n)) w2 b2 bias

/-- Nine terms added one after the other onto zero are their sum. -/
theorem fold9 (a : Fin 9 → EReal) :
    ((((((((0 + a 0) + a 1) + a 2) + a 3) + a 4) + a 5) + a 6) + a 7) + a 8 = ∑ j : Fin 9, a j := by
  simp only [Fin.sum_univ_succ, Fin.sum_univ_zero, zero_add, add_zero, add_assoc]
  rfl

end Cert.HyperNet

end
-- ==== Proof.ConvChain.lean ====
/-
  The kernel's convolution chain read at an index.  The scratch accumulator starts at zero and tap `j` adds to it
  the outer product of that tap's filter column (the relation row against the tap's 200×32 weight slice, plus the
  tap's bias row) with the window of the normalised embedding row shifted by `j`; after the nine taps the
  accumulator at (row `p`, channel `o`, position `w`) is the valid 1×9 convolution of row `p` with channel
  `o`'s filter.
-/
import proofs.«142079_j17248588661540_1_alg».proof.Proof.Body
import proofs.«142079_j17248588661540_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.HyperNet Idealize.ShloMosaic Idealize.ShloMosaic.ValueIdx

/-! ## Three generic steps, over variables -/

/-- The window of a 400-wide row cut from column `j`: position `w` reads column `j + w`. -/
theorem win_apply (j : Nat) (v : FVec Ideal S64x400 .f32) (h : S64x400.Slices ![0, j] S64x392) (p : Fin 64) (w : Fin 392)
    (hj : j + w.val < 400) :
    extractStridedSlice S64x392 ![0, j] v h (ix2 p w) = v (ix2 p ⟨j + w.val, hj⟩) :=
  slice2_axis1_apply j v h p w ⟨j + w.val, hj⟩ rfl

/-- The outer-product step: the accumulator plus the filter column (constant along positions) times the window
    (constant along channels). -/
theorem outer_apply (acc : FVec Ideal S64x32x392 .f32) (k : FVec Ideal S64x32 .f32) (xs : FVec Ideal S64x392 .f32)
    (p : Fin 64) (o : Fin 32) (w : Fin 392) :
    addf acc (mulf (broadcastTo S64x32x392 (shapeCast S64x32x1 k shapeCasts_S64x32_S64x32x1) broadcasts_S64x32x1_S64x32x392)
        (broadcastTo S64x32x392 (shapeCast S64x1x392 xs shapeCasts_S64x392_S64x1x392) broadcasts_S64x1x392_S64x32x392))
      (ix3 p o w) = acc (ix3 p o w) + k (ix2 p o) * xs (ix2 p w) := by
  rw [addf_apply, mulf_apply]
  have h1 : broadcastTo S64x32x392 (shapeCast S64x32x1 k shapeCasts_S64x32_S64x32x1) broadcasts_S64x32x1_S64x32x392 (ix3 p o w)
      = k (ix2 p o) := by
    refine (broadcastTo_apply _ broadcasts_S64x32x1_S64x32x392 (ix3 p o w) (ix3 p o (0 : Fin 1)) fun a => ?_).trans ?_
    · match a with
      | ⟨0, _⟩ => rfl
      | ⟨1, _⟩ => rfl
      | ⟨2, _⟩ => rfl
    · refine shapeCast_apply k shapeCasts_S64x32_S64x32x1 _ (ix2 p o) ?_
      rw [Shape.rowMajor_val_three, Shape.rowMajor_val_two]
      show p.val * 32 + o.val = (p.val * 32 + o.val) * 1 + 0
      omega
  have h2 : broadcastTo S64x32x392 (shapeCast S64x1x392 xs shapeCasts_S64x392_S64x1x392) broadcasts_S64x1x392_S64x32x392 (ix3 p o w)
      = xs (ix2 p w) := by
    refine (broadcastTo_apply _ broadcasts_S64x1x392_S64x32x392 (ix3 p o w) (ix3 p (0 : Fin 1) w) fun a => ?_).trans ?_
    · match a with
      | ⟨0, _⟩ => rfl
      | ⟨1, _⟩ => rfl
      | ⟨2, _⟩ => rfl
    · refine shapeCast_apply xs shapeCasts_S64x392_S64x1x392 _ (ix2 p w) ?_
      rw [Shape.rowMajor_val_three, Shape.rowMajor_val_two]
      show p.val * 392 + w.val = (p.val * 1 + 0) * 392 + w.val
      omega
  rw [h1, h2]

/-- The dot's left operand index at output `(p, o)` and contraction coordinate `d` is `(p, d)`. -/
theorem dot_lhsIdx (p : Fin 64) (o : Fin 32) (d : Fin 200) :
    dot_S64x200_S200x32_S64x32_1_0_0_1_n_n.lhsIdx (ix2 p o)
      ((contrEquiv1 dot_S64x200_S200x32_S64x32_1_0_0_1_n_n 200 rfl rfl).symm d) = ix2 p d := by
  have hk := contrEquiv1_symm_val dot_S64x200_S200x32_S64x32_1_0_0_1_n_n 200 rfl rfl d
  funext a
  refine Fin.ext ?_
  match a with
  | ⟨0, _⟩ =>
    show (dot_S64x200_S200x32_S64x32_1_0_0_1_n_n.lhsIdx (ix2 p o) _ 0).val = p.val
    unfold DotDims.lhsIdx
    rw [dif_neg (show ¬(0 : Fin S64x200.rank) ∈ dot_S64x200_S200x32_S64x32_1_0_0_1_n_n.lhsBatch by decide),
      dif_pos (show (0 : Fin S64x200.rank) ∈ dot_S64x200_S200x32_S64x32_1_0_0_1_n_n.lhsNonContracting by decide)]
    rfl
  | ⟨1, _⟩ =>
    exact (dot_S64x200_S200x32_S64x32_1_0_0_1_n_n.lhsIdx_val_of_single rfl (ix2 p o) _).trans hk

/-- The dot's right operand index at output `(p, o)` and contraction coordinate `d` is `(d, o)`. -/
theorem dot_rhsIdx (p : Fin 64) (o : Fin 32) (d : Fin 200) :
    dot_S64x200_S200x32_S64x32_1_0_0_1_n_n.rhsIdx (ix2 p o)
      ((contrEquiv1 dot_S64x200_S200x32_S64x32_1_0_0_1_n_n 200 rfl rfl).symm d) = ix2 d o := by
  have hk := contrEquiv1_symm_val dot_S64x200_S200x32_S64x32_1_0_0_1_n_n 200 rfl rfl d
  funext a
  refine Fin.ext ?_
  match a with
  | ⟨0, _⟩ =>
    exact (dot_S64x200_S200x32_S64x32_1_0_0_1_n_n.rhsIdx_val_of_single rfl (ix2 p o) _).trans hk
  | ⟨1, _⟩ =>
    show (dot_S64x200_S200x32_S64x32_1_0_0_1_n_n.rhsIdx (ix2 p o) _ 1).val = o.val
    unfold DotDims.rhsIdx
    rw [dif_neg (show ¬(1 : Fin S200x32.rank) ∈ dot_S64x200_S200x32_S64x32_1_0_0_1_n_n.rhsBatch by decide),
      dif_pos (show (1 : Fin S200x32.rank) ∈ dot_S64x200_S200x32_S64x32_1_0_0_1_n_n.rhsNonContracting by decide)]
    rfl

/-- One tap's filter column: the relation row against the tap's weight slice, plus the tap's bias row. -/
theorem filt_apply (r : FVec Ideal S64x200 .f32) (wt : FVec Ideal S1x200x32 .f32) (bt : FVec Ideal S1x32 .f32)
    (p : Fin 64) (o : Fin 32) :
    addf (matmul dot_S64x200_S200x32_S64x32_1_0_0_1_n_n none r (shapeCast S200x32 wt shapeCasts_S1x200x32_S200x32)
        (constant S64x32 .f32 0x00000000#32))
      (broadcastTo S64x32 (shapeCast S1x32 (shapeCast S32 bt shapeCasts_S1x32_S32) shapeCasts_S32_S1x32) broadcasts_S1x32_S64x32)
      (ix2 p o) = (∑ d : Fin 200, r (ix2 p d) * wt (ix3 0 d o)) + bt (ix2 0 o) := by
  rw [addf_apply, shapeCast_shapeCast, broadcastTo_1b_ab_apply]
  refine congrArg (· + bt (ix2 0 o)) ?_
  simp only [matmul]
  rw [Ideal.matmul_constant_zero_apply,
    ← Equiv.sum_comp (contrEquiv1 dot_S64x200_S200x32_S64x32_1_0_0_1_n_n 200 rfl rfl).symm]
  refine Finset.sum_congr rfl fun d _ => ?_
  rw [dot_lhsIdx, dot_rhsIdx, shapeCast_1ab_ab_apply]

/-- The general tap step: the three generic steps put together. -/
theorem tap_step (j : Nat) (h : S64x400.Slices ![0, j] S64x392) (v : FVec Ideal S64x400 .f32) (r : FVec Ideal S64x200 .f32)
    (wt : FVec Ideal S1x200x32 .f32) (bt : FVec Ideal S1x32 .f32) (acc : FVec Ideal S64x32x392 .f32)
    (p : Fin 64) (o : Fin 32) (w : Fin 392) (hj : j + w.val < 400) :
    addf acc (mulf
        (broadcastTo S64x32x392 (shapeCast S64x32x1
          (addf (matmul dot_S64x200_S200x32_S64x32_1_0_0_1_n_n none r (shapeCast S200x32 wt shapeCasts_S1x200x32_S200x32)
              (constant S64x32 .f32 0x00000000#32))
            (broadcastTo S64x32 (shapeCast S1x32 (shapeCast S32 bt shapeCasts_S1x32_S32) shapeCasts_S32_S1x32) broadcasts_S1x32_S64x32))
          shapeCasts_S64x32_S64x32x1) broadcasts_S64x32x1_S64x32x392)
        (broadcastTo S64x32x392 (shapeCast S64x1x392 (extractStridedSlice S64x392 ![0, j] v h) shapeCasts_S64x392_S64x1x392)
          broadcasts_S64x1x392_S64x32x392))
      (ix3 p o w) =
      acc (ix3 p o w) + ((∑ d : Fin 200, r (ix2 p d) * wt (ix3 0 d o)) + bt (ix2 0 o)) * v (ix2 p ⟨j + w.val, hj⟩) := by
  rw [outer_apply, filt_apply, win_apply j v h p w hj]

/-! ## The kernel's own blocks read at an index -/

/-- Tap `j`'s weight slice is the stacked weights at leading coordinate `j`. -/
theorem tapW_apply (x4 : Vec Ideal S9x200x32 .f32) (j : Fin 9) (d : Fin 200) (o : Fin 32) :
    tapW x4 j (ix3 0 d o) = x4 (ix3 j d o) := by
  unfold tapW
  refine congrArg x4 (funext fun a => Fin.ext ?_)
  match a with
  | ⟨0, _⟩ => show j.val + 1 * 0 = j.val; omega
  | ⟨1, _⟩ => show 0 + 1 * d.val = d.val; omega
  | ⟨2, _⟩ => show 0 + 1 * o.val = o.val; omega

/-- Tap `j`'s bias row is the stacked biases at leading coordinate `j`. -/
theorem tapB_apply (x5 : Vec Ideal S9x32 .f32) (j : Fin 9) (o : Fin 32) :
    tapB x5 j (ix2 0 o) = x5 (ix2 j o) := by
  unfold tapB
  refine congrArg x5 (funext fun a => Fin.ext ?_)
  match a with
  | ⟨0, _⟩ => show j.val + 1 * 0 = j.val; omega
  | ⟨1, _⟩ => show 0 + 1 * o.val = o.val; omega

/-- The normalised embedding block: the one scale and the one shift applied to every entry. -/
theorem xn_apply (x0 : Vec Ideal S64x400 .f32) (x2 x3 : Vec Ideal S1 .f32) (p : Fin 64) (q : Fin 400) :
    xn (F := Ideal) x0 x2 x3 (ix2 p q) = x0 (ix2 p q) * x2 (ix1 0) + x3 (ix1 0) := by
  have hb : ∀ y : FVec Ideal S1 .f32,
      broadcastTo S64x400 (shapeCast S1x1 y shapeCasts_S1_S1x1) broadcasts_S1x1_S64x400 (ix2 p q) = y (ix1 0) := by
    intro y
    refine (broadcastTo_apply _ broadcasts_S1x1_S64x400 (ix2 p q) (ix2 (0 : Fin 1) (0 : Fin 1)) fun a => ?_).trans ?_
    · match a with
      | ⟨0, _⟩ => rfl
      | ⟨1, _⟩ => rfl
    · refine shapeCast_apply y shapeCasts_S1_S1x1 _ (ix1 0) ?_
      rw [Shape.rowMajor_val_two, Shape.rowMajor_val_one]
      rfl
  unfold xn k0_pay2
  simp only [shapeCast_self]
  rw [addf_apply, mulf_apply, hb, hb]

/-- The relation block is the loaded block itself. -/
theorem rb_eq (x1 : Vec Ideal S64x200 .f32) : rb (F := Ideal) x1 = x1 := by
  unfold rb k0_pay3
  exact shapeCast_self _ _

/-- The accumulator starts at zero. -/
theorem acc0_apply (p : Fin 64) (o : Fin 32) (w : Fin 392) : acc0 (F := Ideal) (ix3 p o w) = 0 := by
  unfold acc0 k0_pay4
  simp only [shapeCast_self]
  show Ideal.ofBits .f32 0x00000000#32 = 0
  exact Ideal.ofBits_zero_f32

/-! ## The nine taps -/

/-- Tap `j`'s contribution at (row `p`, channel `o`, position `w`): the filter entry times the row's entry at
    column `j + w`. -/
abbrev tapTerm (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) (j : Fin 9) : EReal :=
  ((∑ d : Fin 200, x1 (ix2 p d) * x4 (ix3 j d o)) + x5 (ix2 j o)) * (x0 (ix2 p (winIx w j)) * x2 (ix1 0) + x3 (ix1 0))

theorem acc1_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc1 (F := Ideal) x0 x1 x2 x3 x4 x5 (ix3 p o w) =
      acc0 (F := Ideal) (ix3 p o w) + tapTerm x0 x1 x2 x3 x4 x5 p o w 0 := by
  unfold acc1 k0_pay6 k0_pay5
  simp only [shapeCast_self]
  refine (tap_step 0 slices_S64x400_o0_0_S64x392 (k0_pay2 x0 x2 x3) (k0_pay3 x1) (tapW x4 0) (tapB x5 0) _ p o w
    (by have := w.isLt; omega)).trans ?_
  rw [show k0_pay3 (F := Ideal) x1 = x1 from rb_eq x1]
  simp only [tapW_apply, tapB_apply, show ∀ q, k0_pay2 (F := Ideal) x0 x2 x3 (ix2 p q) = _ from xn_apply x0 x2 x3 p]
  rfl

theorem acc2_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc2 (F := Ideal) x0 x1 x2 x3 x4 x5 (ix3 p o w) =
      acc1 (F := Ideal) x0 x1 x2 x3 x4 x5 (ix3 p o w) + tapTerm x0 x1 x2 x3 x4 x5 p o w 1 := by
  unfold acc2 k0_pay7
  simp only [shapeCast_self]
  refine (tap_step 1 slices_S64x400_o0_1_S64x392 (xn x0 x2 x3) (rb x1) (tapW x4 1) (tapB x5 1) _ p o w
    (by have := w.isLt; omega)).trans ?_
  rw [rb_eq]
  simp only [tapW_apply, tapB_apply, xn_apply]
  rfl

theorem acc3_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc3 (F := Ideal) x0 x1 x2 x3 x4 x5 (ix3 p o w) =
      acc2 (F := Ideal) x0 x1 x2 x3 x4 x5 (ix3 p o w) + tapTerm x0 x1 x2 x3 x4 x5 p o w 2 := by
  unfold acc3 k0_pay9 k0_pay8
  simp only [shapeCast_self]
  refine (tap_step 2 slices_S64x400_o0_2_S64x392 (xn x0 x2 x3) (rb x1) (tapW x4 2) (tapB x5 2) _ p o w
    (by have := w.isLt; omega)).trans ?_
  rw [rb_eq]
  simp only [tapW_apply, tapB_apply, xn_apply]
  rfl

theorem acc4_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc4 (F := Ideal) x0 x1 x2 x3 x4 x5 (ix3 p o w) =
      acc3 (F := Ideal) x0 x1 x2 x3 x4 x5 (ix3 p o w) + tapTerm x0 x1 x2 x3 x4 x5 p o w 3 := by
  unfold acc4 k0_pay10
  simp only [shapeCast_self]
  refine (tap_step 3 slices_S64x400_o0_3_S64x392 (xn x0 x2 x3) (rb x1) (tapW x4 3) (tapB x5 3) _ p o w
    (by have := w.isLt; omega)).trans ?_
  rw [rb_eq]
  simp only [tapW_apply, tapB_apply, xn_apply]
  rfl

theorem acc5_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc5 (F := Ideal) x0 x1 x2 x3 x4 x5 (ix3 p o w) =
      acc4 (F := Ideal) x0 x1 x2 x3 x4 x5 (ix3 p o w) + tapTerm x0 x1 x2 x3 x4 x5 p o w 4 := by
  unfold acc5 k0_pay13 k0_pay11 k0_pay12
  simp only [shapeCast_self]
  refine (tap_step 4 slices_S64x400_o0_4_S64x392 (xn x0 x2 x3) (rb x1) (tapW x4 4) (tapB x5 4) _ p o w
    (by have := w.isLt; omega)).trans ?_
  rw [rb_eq]
  simp only [tapW_apply, tapB_apply, xn_apply]
  rfl

theorem acc6_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc6 (F := Ideal) x0 x1 x2 x3 x4 x5 (ix3 p o w) =
      acc5 (F := Ideal) x0 x1 x2 x3 x4 x5 (ix3 p o w) + tapTerm x0 x1 x2 x3 x4 x5 p o w 5 := by
  unfold acc6 k0_pay14
  simp only [shapeCast_self]
  refine (tap_step 5 slices_S64x400_o0_5_S64x392 (xn x0 x2 x3) (rb x1) (tapW x4 5) (tapB x5 5) _ p o w
    (by have := w.isLt; omega)).trans ?_
  rw [rb_eq]
  simp only [tapW_apply, tapB_apply, xn_apply]
  rfl

theorem acc7_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc7 (F := Ideal) x0 x1 x2 x3 x4 x5 (ix3 p o w) =
      acc6 (F := Ideal) x0 x1 x2 x3 x4 x5 (ix3 p o w) + tapTerm x0 x1 x2 x3 x4 x5 p o w 6 := by
  unfold acc7 k0_pay17 k0_pay15 k0_pay16
  simp only [shapeCast_self]
  refine (tap_step 6 slices_S64x400_o0_6_S64x392 (xn x0 x2 x3) (rb x1) (tapW x4 6) (tapB x5 6) _ p o w
    (by have := w.isLt; omega)).trans ?_
  rw [rb_eq]
  simp only [tapW_apply, tapB_apply, xn_apply]
  rfl

theorem acc8_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc8 (F := Ideal) x0 x1 x2 x3 x4 x5 (ix3 p o w) =
      acc7 (F := Ideal) x0 x1 x2 x3 x4 x5 (ix3 p o w) + tapTerm x0 x1 x2 x3 x4 x5 p o w 7 := by
  unfold acc8 k0_pay18
  simp only [shapeCast_self]
  refine (tap_step 7 slices_S64x400_o0_7_S64x392 (xn x0 x2 x3) (rb x1) (tapW x4 7) (tapB x5 7) _ p o w
    (by have := w.isLt; omega)).trans ?_
  rw [rb_eq]
  simp only [tapW_apply, tapB_apply, xn_apply]
  rfl

theorem acc9_step (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc9 (F := Ideal) x0 x1 x2 x3 x4 x5 (ix3 p o w) =
      acc8 (F := Ideal) x0 x1 x2 x3 x4 x5 (ix3 p o w) + tapTerm x0 x1 x2 x3 x4 x5 p o w 8 := by
  unfold acc9 k0_pay20 k0_pay19
  simp only [shapeCast_self]
  refine (tap_step 8 slices_S64x400_o0_8_S64x392 (xn x0 x2 x3) (rb x1) (tapW x4 8) (tapB x5 8) _ p o w
    (by have := w.isLt; omega)).trans ?_
  rw [rb_eq]
  simp only [tapW_apply, tapB_apply, xn_apply]
  rfl

/-! ## The chain -/

/-- After the nine taps the accumulator holds the valid 1×9 convolution of row `p` of the normalised embeddings with
    the filters formed from row `p` of the relation embeddings. -/
theorem acc9_apply (x0 : Vec Ideal S64x400 .f32) (x1 : Vec Ideal S64x200 .f32) (x2 x3 : Vec Ideal S1 .f32)
    (x4 : Vec Ideal S9x200x32 .f32) (x5 : Vec Ideal S9x32 .f32) (p : Fin 64) (o : Fin 32) (w : Fin 392) :
    acc9 (F := Ideal) x0 x1 x2 x3 x4 x5 (ix3 p o w) =
      conv (fun q => x0 (ix2 p q) * x2 (ix1 0) + x3 (ix1 0))
        (fun o j => (∑ d : Fin 200, x1 (ix2 p d) * x4 (ix3 j d o)) + x5 (ix2 j o)) o w := by
  rw [acc9_step, acc8_step, acc7_step, acc6_step, acc5_step, acc4_step, acc3_step, acc2_step, acc1_step, acc0_apply]
  unfold conv
  exact fold9 (fun j => tapTerm x0 x1 x2 x3 x4 x5 p o w j)

end Cert.KernelIdeal.Body

end
-- ==== Proof.Tail.lean ====
/-
  The kernel's tail read at an index.  After the nine taps the accumulator holds, per batch row, 32 channels of 392
  positions.  The tail applies the per-channel batch norm (mean, scale and shift vectors of length 32 broadcast over
  rows and positions), flattens channels × positions to 12544 features (feature q is channel q / 392, position
  q % 392), multiplies by the dense layer's 12544 × 400 matrix and adds its bias, applies the per-feature batch
  norm, and forms the scalar head: the hyperbolic tangent of the inner product with the last weight column plus
  its bias, plus the final bias.  Each layout step is read at an index by comparing row-major positions; each
  product into the zero accumulator is the sum over its one contracted axis, re-indexed by that axis's coordinate.
-/
import proofs.«142079_j17248588661540_1_alg».proof.Proof.Body
import proofs.«142079_j17248588661540_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.HyperNet Idealize.ShloMosaic Idealize.ShloMosaic.ValueIdx

/-- A per-channel vector [32], viewed [32,1] then [1,32,1] and broadcast over rows and positions, reads its
    channel's entry. -/
theorem chan_bcast_apply (x : Vec Ideal S32 .f32) (p : Fin 64) (o : Fin 32) (w : Fin 392) :
    broadcastTo S64x32x392 (shapeCast S1x32x1 (shapeCast S32x1 x shapeCasts_S32_S32x1) shapeCasts_S32x1_S1x32x1)
      broadcasts_S1x32x1_S64x32x392 (ix3 p o w) = x (ix1 o) := by
  refine (broadcastTo_apply _ broadcasts_S1x32x1_S64x32x392 (ix3 p o w) (ix3 (0 : Fin 1) o (0 : Fin 1)) fun ax => ?_).trans ?_
  · match ax with
    | ⟨0, _⟩ => rfl
    | ⟨1, _⟩ => rfl
    | ⟨2, _⟩ => rfl
  · refine (shapeCast_ab_1ab_apply _ shapeCasts_S32x1_S1x32x1 0 o 0).trans ?_
    exact shapeCast_apply x _ _ _ (by
      rw [Shape.rowMajor_val_two, Shape.rowMajor_val_one]
      show o.val = o.val * 1 + 0
      omega)

/-- The flattening of channels × positions: feature q of row p is channel q / 392, position q % 392. -/
theorem flat_apply {α : Type} (v : S64x32x392.Idx → α) (p : Fin 64) (q : Fin 12544) :
    shapeCast S64x12544 v shapeCasts_S64x32x392_S64x12544 (ix2 p q) = v (ix3 p (chanOf q) (posOf q)) :=
  shapeCast_apply v _ _ _ (by
    rw [Shape.rowMajor_val_three, Shape.rowMajor_val_two]
    show (p.val * 32 + q.val / 392) * 392 + q.val % 392 = p.val * 12544 + q.val
    have := q.isLt
    omega)

/-- A per-feature vector [400], viewed [1,400] and broadcast over rows, reads its feature's entry. -/
theorem row_bcast_apply (x : Vec Ideal S400 .f32) (p : Fin 64) (n : Fin 400) :
    broadcastTo S64x400 (shapeCast S1x400 x shapeCasts_S400_S1x400) broadcasts_S1x400_S64x400 (ix2 p n) = x (ix1 n) :=
  (broadcastTo_1b_ab_apply _ _ p n).trans (shapeCast_a_1a_apply x _ 0 n)

/-- A one-entry vector, viewed [1,1] and broadcast over rows, reads its entry. -/
theorem scal_bcast_apply (x : Vec Ideal S1 .f32) (p : Fin 64) :
    broadcastTo S64x1 (shapeCast S1x1 x shapeCasts_S1_S1x1) broadcasts_S1x1_S64x1 (ix2 p 0) = x (ix1 0) :=
  (broadcastTo_1b_ab_apply _ _ p 0).trans (shapeCast_a_1a_apply x _ 0 0)

/-! The dense layer's product: operand indices at output (p, n) and contraction coordinate q. -/

theorem mm1_lhs_0 (i : S64x400.Idx) (q : dot_S64x12544_S12544x400_S64x400_1_0_0_1_n_n.contr.Idx) :
    (dot_S64x12544_S12544x400_S64x400_1_0_0_1_n_n.lhsIdx i q 0).val = (i 0).val := by
  unfold DotDims.lhsIdx
  rw [dif_neg (show ¬(0 : Fin S64x12544.rank) ∈ dot_S64x12544_S12544x400_S64x400_1_0_0_1_n_n.lhsBatch by decide), dif_pos (show (0 : Fin S64x12544.rank) ∈ dot_S64x12544_S12544x400_S64x400_1_0_0_1_n_n.lhsNonContracting by decide)]
  rfl
theorem mm1_lhs_1 (i : S64x400.Idx) (q : dot_S64x12544_S12544x400_S64x400_1_0_0_1_n_n.contr.Idx) :
    (dot_S64x12544_S12544x400_S64x400_1_0_0_1_n_n.lhsIdx i q 1).val = (q ⟨0, by decide⟩).val :=
  dot_S64x12544_S12544x400_S64x400_1_0_0_1_n_n.lhsIdx_val_of_single rfl i q
theorem mm1_rhs_0 (i : S64x400.Idx) (q : dot_S64x12544_S12544x400_S64x400_1_0_0_1_n_n.contr.Idx) :
    (dot_S64x12544_S12544x400_S64x400_1_0_0_1_n_n.rhsIdx i q 0).val = (q ⟨0, by decide⟩).val :=
  dot_S64x12544_S12544x400_S64x400_1_0_0_1_n_n.rhsIdx_val_of_single rfl i q
theorem mm1_rhs_1 (i : S64x400.Idx) (q : dot_S64x12544_S12544x400_S64x400_1_0_0_1_n_n.contr.Idx) :
    (dot_S64x12544_S12544x400_S64x400_1_0_0_1_n_n.rhsIdx i q 1).val = (i 1).val := by
  unfold DotDims.rhsIdx
  rw [dif_neg (show ¬(1 : Fin S12544x400.rank) ∈ dot_S64x12544_S12544x400_S64x400_1_0_0_1_n_n.rhsBatch by decide), dif_pos (show (1 : Fin S12544x400.rank) ∈ dot_S64x12544_S12544x400_S64x400_1_0_0_1_n_n.rhsNonContracting by decide)]
  rfl

/-- The dense layer's product into the zero accumulator, read at (p, n): the sum over the 12544 flattened features. -/
theorem mm1_apply (L : FVec Ideal S64x12544 .bf16) (R : FVec Ideal S12544x400 .bf16) (p : Fin 64) (n : Fin 400) :
    matmul dot_S64x12544_S12544x400_S64x400_1_0_0_1_n_n none L R (constant (F := Ideal) S64x400 .f32 0x00000000#32) (ix2 p n)
      = ∑ q : Fin 12544, L (ix2 p q) * R (ix2 q n) := by
  refine (Ideal.matmul_constant_zero_apply dot_S64x12544_S12544x400_S64x400_1_0_0_1_n_n none L R (ix2 p n)).trans ?_
  rw [← Equiv.sum_comp (contrEquiv1 dot_S64x12544_S12544x400_S64x400_1_0_0_1_n_n 12544 rfl rfl).symm]
  refine Finset.sum_congr rfl fun k _ => ?_
  have hk := contrEquiv1_symm_val dot_S64x12544_S12544x400_S64x400_1_0_0_1_n_n 12544 rfl rfl k
  have el : dot_S64x12544_S12544x400_S64x400_1_0_0_1_n_n.lhsIdx (ix2 p n) ((contrEquiv1 dot_S64x12544_S12544x400_S64x400_1_0_0_1_n_n 12544 rfl rfl).symm k) = ix2 p k := funext fun a => Fin.ext (by
    match a with
    | ⟨0, _⟩ => exact mm1_lhs_0 _ _
    | ⟨1, _⟩ => exact (mm1_lhs_1 _ _).trans hk)
  have er : dot_S64x12544_S12544x400_S64x400_1_0_0_1_n_n.rhsIdx (ix2 p n) ((contrEquiv1 dot_S64x12544_S12544x400_S64x400_1_0_0_1_n_n 12544 rfl rfl).symm k) = ix2 k n := funext fun a => Fin.ext (by
    match a with
    | ⟨0, _⟩ => exact (mm1_rhs_0 _ _).trans hk
    | ⟨1, _⟩ => exact mm1_rhs_1 _ _)
  rw [el, er]

/-! The head's product: operand indices at output (p, 0) and contraction coordinate n. -/

theorem mm2_lhs_0 (i : S64x1.Idx) (q : dot_S64x400_S400x1_S64x1_1_0_0_1_n_n.contr.Idx) :
    (dot_S64x400_S400x1_S64x1_1_0_0_1_n_n.lhsIdx i q 0).val = (i 0).val := by
  unfold DotDims.lhsIdx
  rw [dif_neg (show ¬(0 : Fin S64x400.rank) ∈ dot_S64x400_S400x1_S64x1_1_0_0_1_n_n.lhsBatch by decide), dif_pos (show (0 : Fin S64x400.rank) ∈ dot_S64x400_S400x1_S64x1_1_0_0_1_n_n.lhsNonContracting by decide)]
  rfl
theorem mm2_lhs_1 (i : S64x1.Idx) (q : dot_S64x400_S400x1_S64x1_1_0_0_1_n_n.contr.Idx) :
    (dot_S64x400_S400x1_S64x1_1_0_0_1_n_n.lhsIdx i q 1).val = (q ⟨0, by decide⟩).val :=
  dot_S64x400_S400x1_S64x1_1_0_0_1_n_n.lhsIdx_val_of_single rfl i q
theorem mm2_rhs_0 (i : S64x1.Idx) (q : dot_S64x400_S400x1_S64x1_1_0_0_1_n_n.contr.Idx) :
    (dot_S64x400_S400x1_S64x1_1_0_0_1_n_n.rhsIdx i q 0).val = (q ⟨0, by decide⟩).val :=
  dot_S64x400_S400x1_S64x1_1_0_0_1_n_n.rhsIdx_val_of_single rfl i q
theorem mm2_rhs_1 (i : S64x1.Idx) (q : dot_S64x400_S400x1_S64x1_1_0_0_1_n_n.contr.Idx) :
    (dot_S64x400_S400x1_S64x1_1_0_0_1_n_n.rhsIdx i q 1).val = (i 1).val := by
  unfold DotDims.rhsIdx
  rw [dif_neg (show ¬(1 : Fin S400x1.rank) ∈ dot_S64x400_S400x1_S64x1_1_0_0_1_n_n.rhsBatch by decide), dif_pos (show (1 : Fin S400x1.rank) ∈ dot_S64x400_S400x1_S64x1_1_0_0_1_n_n.rhsNonContracting by decide)]
  rfl

/-- The head's product into the zero accumulator, read at (p, 0): the sum over the 400 features. -/
theorem mm2_apply (L : FVec Ideal S64x400 .f32) (R : FVec Ideal S400x1 .f32) (p : Fin 64) :
    matmul dot_S64x400_S400x1_S64x1_1_0_0_1_n_n none L R (constant (F := Ideal) S64x1 .f32 0x00000000#32) (ix2 p 0)
      = ∑ n : Fin 400, L (ix2 p n) * R (ix2 n 0) := by
  refine (Ideal.matmul_constant_zero_apply dot_S64x400_S400x1_S64x1_1_0_0_1_n_n none L R (ix2 p 0)).trans ?_
  rw [← Equiv.sum_comp (contrEquiv1 dot_S64x400_S400x1_S64x1_1_0_0_1_n_n 400 rfl rfl).symm]
  refine Finset.sum_congr rfl fun k _ => ?_
  have hk := contrEquiv1_symm_val dot_S64x400_S400x1_S64x1_1_0_0_1_n_n 400 rfl rfl k
  have el : dot_S64x400_S400x1_S64x1_1_0_0_1_n_n.lhsIdx (ix2 p 0) ((contrEquiv1 dot_S64x400_S400x1_S64x1_1_0_0_1_n_n 400 rfl rfl).symm k) = ix2 p k := funext fun a => Fin.ext (by
    match a with
    | ⟨0, _⟩ => exact mm2_lhs_0 _ _
    | ⟨1, _⟩ => exact (mm2_lhs_1 _ _).trans hk)
  have er : dot_S64x400_S400x1_S64x1_1_0_0_1_n_n.rhsIdx (ix2 p 0) ((contrEquiv1 dot_S64x400_S400x1_S64x1_1_0_0_1_n_n 400 rfl rfl).symm k) = ix2 k 0 := funext fun a => Fin.ext (by
    match a with
    | ⟨0, _⟩ => exact (mm2_rhs_0 _ _).trans hk
    | ⟨1, _⟩ => exact mm2_rhs_1 _ _)
  rw [el, er]

/-- The centred input of the second batch norm, read at (p, n): the dense layer of the per-channel batch norm of the
    accumulator, less the second mean. -/
theorem pay21_apply (x6 x7 x8 : Vec Ideal S32 .f32) (A : Vec Ideal S64x32x392 .f32) (x9 : Vec Ideal S12544x400 .bf16)
    (x10 x11 : Vec Ideal S400 .f32) (p : Fin 64) (n : Fin 400) :
    k0_pay21 (F := Ideal) x6 x7 x8 A x9 x10 x11 (ix2 p n) =
      dense (fun o w => bnorm (A (ix3 p o w)) (x6 (ix1 o)) (x7 (ix1 o)) (x8 (ix1 o)))
        (fun n q => x9 (ix2 q n)) (fun n => x10 (ix1 n)) n - x11 (ix1 n) := by
  dsimp only [k0_pay21]
  rw [subf_apply, addf_apply, row_bcast_apply, row_bcast_apply, mm1_apply]
  unfold dense
  refine congrArg (fun z => z + x10 (ix1 n) - x11 (ix1 n)) (Finset.sum_congr rfl fun q _ => ?_)
  rw [truncf_apply, flat_apply, addf_apply, mulf_apply, subf_apply, chan_bcast_apply, chan_bcast_apply,
    chan_bcast_apply, shapeCast_self, shapeCast_self]
  rfl

/-- The block of results, read at (p, 0), over the centred input h of the second batch norm. -/
theorem pay1_apply (h : FVec Ideal S64x400 .f32) (x12 x13 : Vec Ideal S400 .f32) (x14 : Vec Ideal S400x1 .f32)
    (x15 x16 : Vec Ideal S1 .f32) (p : Fin 64) :
    k0_pay1 (F := Ideal) h x12 x13 x14 x15 x16 (ix2 p 0) =
      Ideal.tanh ((∑ n : Fin 400, (h (ix2 p n) * x12 (ix1 n) + x13 (ix1 n)) * x14 (ix2 n 0)) + x15 (ix1 0)) + x16 (ix1 0) := by
  dsimp only [k0_pay1]
  rw [addf_apply, scal_bcast_apply]
  refine congrArg (fun z => z + x16 (ix1 0)) ?_
  show Ideal.tanh _ = _
  refine congrArg Ideal.tanh ?_
  rw [addf_apply, scal_bcast_apply, mm2_apply]
  refine congrArg (fun z => z + x15 (ix1 0)) (Finset.sum_congr rfl fun n _ => ?_)
  rw [addf_apply, mulf_apply, row_bcast_apply, row_bcast_apply, shapeCast_self, shapeCast_self]

/-- The kernel's tail read at row p: the head over the second batch norm of the dense layer of the per-channel batch
    norm of the accumulated convolution. -/
theorem outv_apply (x0 : Vec Ideal S64x400 .f32) (x1 : Vec Ideal S64x200 .f32) (x2 x3 : Vec Ideal S1 .f32) (x4 : Vec Ideal S9x200x32 .f32) (x5 : Vec Ideal S9x32 .f32) (x6 x7 x8 : Vec Ideal S32 .f32) (x9 : Vec Ideal S12544x400 .bf16) (x10 x11 x12 x13 : Vec Ideal S400 .f32) (x14 : Vec Ideal S400x1 .f32) (x15 x16 : Vec Ideal S1 .f32) (p : Fin 64) :
    outv (F := Ideal) x0 x1 x2 x3 x4 x5 x6 x7 x8 x9 x10 x11 x12 x13 x14 x15 x16 (ix2 p 0) =
      head (fun n => bnorm (dense (fun o w => bnorm (acc9 (F := Ideal) x0 x1 x2 x3 x4 x5 (ix3 p o w)) (x6 (ix1 o)) (x7 (ix1 o)) (x8 (ix1 o)))
              (fun n q => x9 (ix2 q n)) (fun n => x10 (ix1 n)) n) (x11 (ix1 n)) (x12 (ix1 n)) (x13 (ix1 n)))
        (fun n => x14 (ix2 n 0)) (x15 (ix1 0)) (x16 (ix1 0)) := by
  unfold outv hid
  generalize acc9 (F := Ideal) x0 x1 x2 x3 x4 x5 = A
  rw [pay1_apply]
  unfold head
  refine congrArg (fun z => Ideal.tanh (z + x15 (ix1 0)) + x16 (ix1 0)) (Finset.sum_congr rfl fun n _ => ?_)
  rw [pay21_apply]
  rfl

end Cert.KernelIdeal.Body

end
-- ==== Proof.HostVals.lean ====
/-
  The arrays the kernel's one region finds, as functions of the arguments of the whole program.
  Before the region the program gathers and stacks the embeddings, folds each batch norm's scale
  `γ / √(var + ε)` (and, for the first one, its shift `β − μ · scale`), regroups the hypernetwork's
  weight rows `o·9 + j` as tap `j` of channel `o`, and transposes the dense layer's weights.
  Each theorem reads one of those arrays at an index.
-/
import proofs.«142079_j17248588661540_1_alg».proof.Proof.Gen.KernelIdeal.Frame
import proofs.«142079_j17248588661540_1_alg».proof.Proof.Gen.ReferenceIdeal.Read
import proofs.«142079_j17248588661540_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run

noncomputable section

namespace Cert.KernelIdeal.HostVals

open Cert.KernelIdeal Cert.KernelIdeal.Gen Cert.HyperNet Idealize.ShloMosaic Idealize.ShloMosaic.TcCoe Idealize.ShloMosaic.ValueIdx

/-- The batch norms' ε. -/
abbrev ε : EReal := Ideal.ofBits .f32 0x3727C5AC#32

/-- A batch norm's scale `γ / √(var + ε)`, read at an index. -/
theorem scale_apply {s : Shape} (g v : FVec Ideal s .f32) (h : S_.BroadcastsInDim s ![]) (i : s.Idx) :
    Host.divf g (Host.sqrt (addf v (broadcastInDim s ![] h (constant (F := Ideal) S_ .f32 0x3727C5AC#32)))) i
      = Ideal.div (g i) (Ideal.sqrt (v i + ε)) := by
  show Ideal.div (g i) (Ideal.sqrt (v i + broadcastInDim s ![] h (constant (F := Ideal) S_ .f32 0x3727C5AC#32) i)) = _
  rw [broadcastInDim_scalar_apply]
  rfl

/-- The hypernetwork's weight rows regrouped: tap `j`, input `d`, channel `o` is row `o·9 + j`, column `d`. -/
theorem tapW_apply (x : FVec Ideal S288x200 .f32) (j : Fin 9) (d : Fin 200) (o : Fin 32) :
    transpose S9x200x32 [1, 2, 0] (shapeCast S32x9x200 x shapeCasts_S288x200_S32x9x200) transposes_S32x9x200_S9x200x32_1_2_0 (ix3 j d o)
      = x (ix2 (tapIx o j) d) := by
  rw [transpose_apply _ _ _ (ix3 j d o) (ix3 o j d) (fun b => match b with | ⟨0, _⟩ => rfl | ⟨1, _⟩ => rfl | ⟨2, _⟩ => rfl)]
  refine shapeCast_apply _ _ _ _ ?_
  rw [Shape.rowMajor_val_two, Shape.rowMajor_val_three]
  rfl

/-- The hypernetwork's bias regrouped the same way. -/
theorem tapB_apply (x : FVec Ideal S288 .f32) (j : Fin 9) (o : Fin 32) :
    transpose S9x32 [1, 0] (shapeCast S32x9 x shapeCasts_S288_S32x9) transposes_S32x9_S9x32_1_0 (ix2 j o)
      = x (ix1 (tapIx o j)) := by
  rw [transpose_ix2_apply]
  refine shapeCast_apply _ _ _ _ ?_
  rw [Shape.rowMajor_val_one, Shape.rowMajor_val_two]
  rfl

variable (m : (ℓ : Loc nD τ sig) → Buf (Elt Ideal) ℓ) (c : Dev nD)

abbrev a0 : Vec Ideal S4096 .i32 := m ((c : Thread nD τ).loc main_arg0)
abbrev a1 : Vec Ideal S4096 .i32 := m ((c : Thread nD τ).loc main_arg1)
abbrev a2 : Vec Ideal S4096 .i32 := m ((c : Thread nD τ).loc main_arg2)
abbrev a3 : FVec Ideal S100000x200 .f32 := m ((c : Thread nD τ).loc main_arg3)
abbrev a4 : FVec Ideal S500x200 .f32 := m ((c : Thread nD τ).loc main_arg4)
abbrev a5 : FVec Ideal S1 .f32 := m ((c : Thread nD τ).loc main_arg5)
abbrev a6 : FVec Ideal S1 .f32 := m ((c : Thread nD τ).loc main_arg6)
abbrev a7 : FVec Ideal S1 .f32 := m ((c : Thread nD τ).loc main_arg7)
abbrev a8 : FVec Ideal S1 .f32 := m ((c : Thread nD τ).loc main_arg8)
abbrev a9 : FVec Ideal S288x200 .f32 := m ((c : Thread nD τ).loc main_arg9)
abbrev a10 : FVec Ideal S288 .f32 := m ((c : Thread nD τ).loc main_arg10)
abbrev a11 : FVec Ideal S32 .f32 := m ((c : Thread nD τ).loc main_arg11)
abbrev a14 : FVec Ideal S32 .f32 := m ((c : Thread nD τ).loc main_arg14)
abbrev a15 : FVec Ideal S400x12544 .f32 := m ((c : Thread nD τ).loc main_arg15)
abbrev a17 : FVec Ideal S400 .f32 := m ((c : Thread nD τ).loc main_arg17)
abbrev a20 : FVec Ideal S400 .f32 := m ((c : Thread nD τ).loc main_arg20)
abbrev a21 : FVec Ideal S1x400 .f32 := m ((c : Thread nD τ).loc main_arg21)

/-- The stacked gathered entity embeddings: the same term of the arguments in both programs. -/
theorem V_v14 : (V m c main_v14 : S4096x400.Idx → EReal)
    = Cert.ReferenceIdeal.Read.val_main_v14 (F := Ideal) (a0 m c) (a2 m c) (a3 m c) := by
  dsimp only [Gen.V, Gen.hostOps0]; after_results_simp
  rfl

/-- The gathered relation embeddings: the same term of the arguments in both programs. -/
theorem V_v21 : (V m c main_v21 : S4096x200.Idx → EReal)
    = Cert.ReferenceIdeal.Read.val_main_v34 (F := Ideal) (a1 m c) (a4 m c) := by
  dsimp only [Gen.V, Gen.hostOps0]; after_results_simp
  rfl

/-- The first batch norm's scale. -/
theorem V_v25 : (V m c main_v25 : S1.Idx → EReal) (ix1 0) = Ideal.div (a5 m c (ix1 0)) (Ideal.sqrt (a8 m c (ix1 0) + ε)) := by
  have e : (V m c main_v25 : S1.Idx → EReal) = Host.divf (a5 m c) (Host.sqrt (addf (a8 m c)
      (broadcastInDim S1 ![] bcast_S_S1 (constant (F := Ideal) S_ .f32 0x3727C5AC#32)))) := by
    dsimp only [Gen.V, Gen.hostOps0]; after_results_simp
  rw [e]
  exact scale_apply _ _ _ _

/-- The first batch norm's shift `β − μ · scale`. -/
theorem V_v27 : (V m c main_v27 : S1.Idx → EReal) (ix1 0)
    = a6 m c (ix1 0) - a7 m c (ix1 0) * Ideal.div (a5 m c (ix1 0)) (Ideal.sqrt (a8 m c (ix1 0) + ε)) := by
  have e : (V m c main_v27 : S1.Idx → EReal) = subf (a6 m c) (mulf (a7 m c) (Host.divf (a5 m c) (Host.sqrt (addf (a8 m c)
      (broadcastInDim S1 ![] bcast_S_S1 (constant (F := Ideal) S_ .f32 0x3727C5AC#32)))))) := by
    dsimp only [Gen.V, Gen.hostOps0]; after_results_simp
  rw [e, subf_apply, mulf_apply, scale_apply]

/-- The per-channel batch norm's scale. -/
theorem V_v31 (o : Fin 32) : (V m c main_v31 : S32.Idx → EReal) (ix1 o) = Ideal.div (a11 m c (ix1 o)) (Ideal.sqrt (a14 m c (ix1 o) + ε)) := by
  have e : (V m c main_v31 : S32.Idx → EReal) = Host.divf (a11 m c) (Host.sqrt (addf (a14 m c)
      (broadcastInDim S32 ![] bcast_S_S32 (constant (F := Ideal) S_ .f32 0x3727C5AC#32)))) := by
    dsimp only [Gen.V, Gen.hostOps0]; after_results_simp
  rw [e]
  exact scale_apply _ _ _ _

/-- The per-feature batch norm's scale. -/
theorem V_v35 (n : Fin 400) : (V m c main_v35 : S400.Idx → EReal) (ix1 n) = Ideal.div (a17 m c (ix1 n)) (Ideal.sqrt (a20 m c (ix1 n) + ε)) := by
  have e : (V m c main_v35 : S400.Idx → EReal) = Host.divf (a17 m c) (Host.sqrt (addf (a20 m c)
      (broadcastInDim S400 ![] bcast_S_S400 (constant (F := Ideal) S_ .f32 0x3727C5AC#32)))) := by
    dsimp only [Gen.V, Gen.hostOps0]; after_results_simp
  rw [e]
  exact scale_apply _ _ _ _

/-- The stacked tap matrices. -/
theorem V_v37 (j : Fin 9) (d : Fin 200) (o : Fin 32) :
    (V m c main_v37 : S9x200x32.Idx → EReal) (ix3 j d o) = a9 m c (ix2 (tapIx o j) d) := by
  have e : (V m c main_v37 : S9x200x32.Idx → EReal) = transpose S9x200x32 [1, 2, 0]
      (shapeCast S32x9x200 (a9 m c) shapeCasts_S288x200_S32x9x200) transposes_S32x9x200_S9x200x32_1_2_0 := by
    dsimp only [Gen.V, Gen.hostOps0]; after_results_simp; rfl
  rw [e]
  exact tapW_apply _ j d o

/-- The stacked tap biases. -/
theorem V_v39 (j : Fin 9) (o : Fin 32) :
    (V m c main_v39 : S9x32.Idx → EReal) (ix2 j o) = a10 m c (ix1 (tapIx o j)) := by
  have e : (V m c main_v39 : S9x32.Idx → EReal) = transpose S9x32 [1, 0]
      (shapeCast S32x9 (a10 m c) shapeCasts_S288_S32x9) transposes_S32x9_S9x32_1_0 := by
    dsimp only [Gen.V, Gen.hostOps0]; after_results_simp; rfl
  rw [e]
  exact tapB_apply _ j o

/-- The dense layer's weights, transposed (the narrowing of the format is the identity on extended reals). -/
theorem V_v41 (q : Fin 12544) (n : Fin 400) :
    (V m c main_v41 : S12544x400.Idx → EReal) (ix2 q n) = a15 m c (ix2 n q) := by
  have e : (V m c main_v41 : S12544x400.Idx → EReal) = truncf .bf16 (transpose S12544x400 [1, 0] (a15 m c)
      transposes_S400x12544_S12544x400_1_0) bitsLt_bf16_f32 := by
    dsimp only [Gen.V, Gen.hostOps0]; after_results_simp
  rw [e, truncf_apply]
  exact transpose_ix2_apply _ _ q n

/-- The head's weights, transposed. -/
theorem V_v42 (n : Fin 400) :
    (V m c main_v42 : S400x1.Idx → EReal) (ix2 n 0) = a21 m c (ix2 0 n) := by
  have e : (V m c main_v42 : S400x1.Idx → EReal) = transpose S400x1 [1, 0] (a21 m c) transposes_S1x400_S400x1_1_0 := by
    dsimp only [Gen.V, Gen.hostOps0]; after_results_simp
  rw [e]
  exact transpose_ix2_apply _ _ n 0

end Cert.KernelIdeal.HostVals

end
-- ==== Proof.Law.lean ====
/-
  The one algebraic law that joins the two programs.  The kernel folds the first batch-norm into a
  scale and a shift computed beforehand, `e * s + (β - μ * s)`, where the reference normalises in place,
  `(e - μ) * s + β`.  On real numbers the two agree by distributivity; on the extended reals they need not
  (at `s = ⊤` the first is `⊤ + ⊥`), which is why the certificate asks for finite inputs and a positive
  `var + ε`: then `s = γ / √(var + ε)` is a real number too.
-/
import Mathlib.Data.EReal.Operations
import Mathlib.Analysis.SpecialFunctions.Pow.Real
import Idealize.ShloMosaic.PureOps.Ideal

namespace Cert.HyperNet

open Idealize.ShloMosaic

/-- Distributivity over real values, read in the extended reals. -/
theorem affine_fold (e μ s β : ℝ) :
    ((e : EReal) - (μ : EReal)) * (s : EReal) + (β : EReal) = (e : EReal) * (s : EReal) + ((β : EReal) - (μ : EReal) * (s : EReal)) := by
  rw [← EReal.coe_sub, ← EReal.coe_mul, ← EReal.coe_add, ← EReal.coe_mul, ← EReal.coe_mul, ← EReal.coe_sub, ← EReal.coe_add]
  congr 1
  ring

/-- For a real `γ` and a real `v` with `v + ε` positive, the scale `γ / √(v + ε)` is a real number. -/
theorem scale_real (γ v ε : ℝ) (h : 0 < v + ε) :
    ∃ s : ℝ, Ideal.div (γ : EReal) (Ideal.sqrt (((v : EReal)) + (ε : EReal))) = (s : EReal) := by
  refine ⟨γ * (1 / Real.sqrt (v + ε)), ?_⟩
  have hs : Real.sqrt (v + ε) ≠ 0 := (Real.sqrt_pos.mpr h).ne'
  rw [← EReal.coe_add, Ideal.sqrt_coe, if_neg (not_lt.mpr h.le), Ideal.div_coe hs, ← EReal.coe_mul]

end Cert.HyperNet
-- ==== Proof.Net.lean ====
/-
  The whole-batch functions.  `net` applies the row network to every batch row, given the normalised stacked
  embeddings `x` row by row; `xFold` and `xNorm` are the two spellings of the first batch norm (folded into a
  scale and a shift beforehand, or applied in place).
-/
import proofs.«142079_j17248588661540_1_alg».proof.Proof.Spec
import proofs.«142079_j17248588661540_1_alg».proof.Proof.Law
import Idealize.ShloMosaic.Lib.ValueIdx

noncomputable section

namespace Cert.HyperNet

open Idealize.ShloMosaic Idealize.ShloMosaic.ValueIdx

/-- The scale `γ / √(var + ε)` of a batch norm. -/
def bnScale (γ v ε : EReal) : EReal := Ideal.div γ (Ideal.sqrt (v + ε))

/-- The first batch norm, folded: `e · s + (β − μ · s)`. -/
def xFold (E : (⟨2, ![4096, 400]⟩ : Shape).Idx → EReal) (A5 A6 A7 A8 : (⟨1, ![1]⟩ : Shape).Idx → EReal) (ε : EReal) :
    Fin 4096 → Fin 400 → EReal := fun b q =>
  E (ix2 b q) * bnScale (A5 (ix1 0)) (A8 (ix1 0)) ε + (A6 (ix1 0) - A7 (ix1 0) * bnScale (A5 (ix1 0)) (A8 (ix1 0)) ε)

/-- The first batch norm, in place: `(e − μ) · s + β`. -/
def xNorm (E : (⟨2, ![4096, 400]⟩ : Shape).Idx → EReal) (A5 A6 A7 A8 : (⟨1, ![1]⟩ : Shape).Idx → EReal) (ε : EReal) :
    Fin 4096 → Fin 400 → EReal := fun b q =>
  bnorm (E (ix2 b q)) (A7 (ix1 0)) (bnScale (A5 (ix1 0)) (A8 (ix1 0)) ε) (A6 (ix1 0))

/-- Every batch row through the row network, the weights read off the argument arrays. -/
def net (x : Fin 4096 → Fin 400 → EReal) (R : (⟨2, ![4096, 200]⟩ : Shape).Idx → EReal)
    (A9 : (⟨2, ![288, 200]⟩ : Shape).Idx → EReal) (A10 : (⟨1, ![288]⟩ : Shape).Idx → EReal)
    (A11 A12 A13 A14 : (⟨1, ![32]⟩ : Shape).Idx → EReal) (A15 : (⟨2, ![400, 12544]⟩ : Shape).Idx → EReal)
    (A16 A17 A18 A19 A20 : (⟨1, ![400]⟩ : Shape).Idx → EReal) (A21 : (⟨2, ![1, 400]⟩ : Shape).Idx → EReal)
    (A22 A23 : (⟨1, ![1]⟩ : Shape).Idx → EReal) (ε : EReal) : (⟨2, ![4096, 1]⟩ : Shape).Idx → EReal := fun i =>
  rowOut (x ⟨(i 0).val, (i 0).isLt⟩) (fun d => R (ix2 ⟨(i 0).val, (i 0).isLt⟩ d))
    (fun n d => A9 (ix2 n d)) (fun n => A10 (ix1 n))
    (fun o => A13 (ix1 o)) (fun o => bnScale (A11 (ix1 o)) (A14 (ix1 o)) ε) (fun o => A12 (ix1 o))
    (fun n q => A15 (ix2 n q)) (fun n => A16 (ix1 n))
    (fun n => A19 (ix1 n)) (fun n => bnScale (A17 (ix1 n)) (A20 (ix1 n)) ε) (fun n => A18 (ix1 n))
    (fun n => A21 (ix2 0 n)) (A22 (ix1 0)) (A23 (ix1 0))

/-- The folded and the in-place first batch norm agree on a finite entry when the norm's four parameters and its
    epsilon are finite and `var + ε` is positive. -/
theorem bn0_agree {e γ β μ v ε : EReal} (he : ∃ r : ℝ, e = (r : EReal)) (hγ : ∃ r : ℝ, γ = (r : EReal))
    (hβ : ∃ r : ℝ, β = (r : EReal)) (hμ : ∃ r : ℝ, μ = (r : EReal)) (hv : ∃ r : ℝ, v = (r : EReal))
    (hε : ∃ r : ℝ, ε = (r : EReal)) (hpos : 0 < v + ε) :
    e * Ideal.div γ (Ideal.sqrt (v + ε)) + (β - μ * Ideal.div γ (Ideal.sqrt (v + ε)))
      = (e - μ) * Ideal.div γ (Ideal.sqrt (v + ε)) + β := by
  obtain ⟨e, rfl⟩ := he; obtain ⟨γ, rfl⟩ := hγ; obtain ⟨β, rfl⟩ := hβ; obtain ⟨μ, rfl⟩ := hμ
  obtain ⟨v, rfl⟩ := hv; obtain ⟨ε, rfl⟩ := hε
  have hp : 0 < v + ε := by
    rw [← EReal.coe_add] at hpos
    exact_mod_cast hpos
  obtain ⟨s, hs⟩ := scale_real γ v ε hp
  rw [hs]
  exact (affine_fold e μ s β).symm

/-- The two spellings of the first batch norm agree on every entry when the stacked embeddings, the norm's four
    parameters and its epsilon are finite and `var + ε` is positive. -/
theorem x_agree (E : (⟨2, ![4096, 400]⟩ : Shape).Idx → EReal) (A5 A6 A7 A8 : (⟨1, ![1]⟩ : Shape).Idx → EReal) (ε : EReal)
    (hE : ∀ i, ∃ r : ℝ, E i = (r : EReal)) (h5 : ∃ r : ℝ, A5 (ix1 0) = (r : EReal)) (h6 : ∃ r : ℝ, A6 (ix1 0) = (r : EReal))
    (h7 : ∃ r : ℝ, A7 (ix1 0) = (r : EReal)) (h8 : ∃ r : ℝ, A8 (ix1 0) = (r : EReal)) (hε : ∃ r : ℝ, ε = (r : EReal))
    (hpos : 0 < A8 (ix1 0) + ε) : xFold E A5 A6 A7 A8 ε = xNorm E A5 A6 A7 A8 ε := by
  funext b q
  unfold xFold xNorm bnorm bnScale
  exact bn0_agree (hE _) h5 h6 h7 h8 hε hpos

end Cert.HyperNet

end
-- ==== Proof.KernelValue.lean ====
/-
  The kernel's result array as one function of @main's arguments.  At a grid point the body turns the point's
  input blocks into the result block (the body function); its chain of nine taps is the convolution of each block
  row, its tail the rest of the row network; a block row is a batch row of the arrays the region finds, and those
  arrays are host-side functions of the arguments (gathers, regroupings, transposes, the batch norms' scales).
  So each point writes back its 64 batch rows of `G`, and the 64 points' blocks tile the batch.
-/
import proofs.«142079_j17248588661540_1_alg».proof.Proof.Gen.KernelIdeal.Value
import proofs.«142079_j17248588661540_1_alg».proof.Proof.Gen.ReferenceIdeal.Read
import proofs.«142079_j17248588661540_1_alg».proof.Proof.Piece
import proofs.«142079_j17248588661540_1_alg».proof.Proof.Blocks
import proofs.«142079_j17248588661540_1_alg».proof.Proof.ConvChain
import proofs.«142079_j17248588661540_1_alg».proof.Proof.Tail
import proofs.«142079_j17248588661540_1_alg».proof.Proof.HostVals
import proofs.«142079_j17248588661540_1_alg».proof.Proof.Net
import Idealize.ShloMosaic.Lib.ValueIdx
import Idealize.ShloMosaic.Lib.Pipeline.Value

set_option maxRecDepth 16384

noncomputable section

namespace Cert.KernelIdeal.KValue
open Cert.KernelIdeal Cert.KernelIdeal.Gen Cert.KernelIdeal.Body Cert.KernelIdeal.Blocks Cert.KernelIdeal.HostVals Cert.HyperNet
open Idealize.ShloMosaic Idealize.ShloMosaic.TcCoe Idealize.ShloMosaic.ValueIdx Idealize.SL.Sem

variable (m : (ℓ : Loc nD τ sig) → Buf (Elt Ideal) ℓ) (ρ : Dev nD → PrngReg)

abbrev a12 (c : Dev nD) : FVec Ideal S32 .f32 := m ((c : Thread nD τ).loc main_arg12)
abbrev a13 (c : Dev nD) : FVec Ideal S32 .f32 := m ((c : Thread nD τ).loc main_arg13)
abbrev a16 (c : Dev nD) : FVec Ideal S400 .f32 := m ((c : Thread nD τ).loc main_arg16)
abbrev a18 (c : Dev nD) : FVec Ideal S400 .f32 := m ((c : Thread nD τ).loc main_arg18)
abbrev a19 (c : Dev nD) : FVec Ideal S400 .f32 := m ((c : Thread nD τ).loc main_arg19)
abbrev a22 (c : Dev nD) : FVec Ideal S1 .f32 := m ((c : Thread nD τ).loc main_arg22)
abbrev a23 (c : Dev nD) : FVec Ideal S1 .f32 := m ((c : Thread nD τ).loc main_arg23)

abbrev B0 (c : Dev nD) (t : Fin cfg0.N) : Vec Ideal S64x400 .f32 := iblk m c 0 t
abbrev B1 (c : Dev nD) (t : Fin cfg0.N) : Vec Ideal S64x200 .f32 := iblk m c 1 t
abbrev B2 (c : Dev nD) (t : Fin cfg0.N) : Vec Ideal S1 .f32 := iblk m c 2 t
abbrev B3 (c : Dev nD) (t : Fin cfg0.N) : Vec Ideal S1 .f32 := iblk m c 3 t
abbrev B4 (c : Dev nD) (t : Fin cfg0.N) : Vec Ideal S9x200x32 .f32 := iblk m c 4 t
abbrev B5 (c : Dev nD) (t : Fin cfg0.N) : Vec Ideal S9x32 .f32 := iblk m c 5 t
abbrev B6 (c : Dev nD) (t : Fin cfg0.N) : Vec Ideal S32 .f32 := iblk m c 6 t
abbrev B7 (c : Dev nD) (t : Fin cfg0.N) : Vec Ideal S32 .f32 := iblk m c 7 t
abbrev B8 (c : Dev nD) (t : Fin cfg0.N) : Vec Ideal S32 .f32 := iblk m c 8 t
abbrev B9 (c : Dev nD) (t : Fin cfg0.N) : Vec Ideal S12544x400 .bf16 := iblk m c 9 t
abbrev B10 (c : Dev nD) (t : Fin cfg0.N) : Vec Ideal S400 .f32 := iblk m c 10 t
abbrev B11 (c : Dev nD) (t : Fin cfg0.N) : Vec Ideal S400 .f32 := iblk m c 11 t
abbrev B12 (c : Dev nD) (t : Fin cfg0.N) : Vec Ideal S400 .f32 := iblk m c 12 t
abbrev B13 (c : Dev nD) (t : Fin cfg0.N) : Vec Ideal S400 .f32 := iblk m c 13 t
abbrev B14 (c : Dev nD) (t : Fin cfg0.N) : Vec Ideal S400x1 .f32 := iblk m c 14 t
abbrev B15 (c : Dev nD) (t : Fin cfg0.N) : Vec Ideal S1 .f32 := iblk m c 15 t
abbrev B16 (c : Dev nD) (t : Fin cfg0.N) : Vec Ideal S1 .f32 := iblk m c 16 t

/-- The result array as one function of @main's arguments: every batch row through the row network, the
    first batch norm in its folded spelling. -/
def G (c : Dev nD) : S4096x1.Idx → EReal :=
  net (xFold (Cert.ReferenceIdeal.Read.val_main_v14 (F := Ideal) (a0 m c) (a2 m c) (a3 m c)) (a5 m c) (a6 m c) (a7 m c) (a8 m c) ε)
    (Cert.ReferenceIdeal.Read.val_main_v34 (F := Ideal) (a1 m c) (a4 m c)) (a9 m c) (a10 m c) (a11 m c) (a12 m c) (a13 m c) (a14 m c) (a15 m c)
    (a16 m c) (a17 m c) (a18 m c) (a19 m c) (a20 m c) (a21 m c) (a22 m c) (a23 m c) ε

/-- The block point `t` writes back is the body function of the point's input blocks. -/
theorem flushed_body (c : Dev nD) (t : Fin cfg0.N) :
    (dats m 0 c).flushed 17 t = (cfg0.win 17).cut (grid0.coords t) (outv (F := Ideal) (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t)) := by
  rw [Value.flushed17_A]
  exact congrArg ((cfg0.win 17).cut (grid0.coords t))
    (result_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-- Row `p` of the block point `t` writes back is batch row `64 t + p` of `G`: the body's chain of taps is the
    row's convolution, its tail the rest of the row network, and each block row is that batch row of its array. -/
theorem body_row (c : Dev nD) (t : Fin cfg0.N) (p : Fin 64) :
    outv (F := Ideal) (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (ix2 p 0) = G m c (ix2 (rowAt t p) 0) := by
  refine (outv_apply (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) p).trans ?_
  simp only [acc9_apply]
  simp only [B0, B1, B2, B3, B4, B5, B6, B7, B8, B9, B10, B11, B12, B13, B14, B15, B16,
    blk0_apply, blk1_apply, blk2_apply, blk3_apply, blk4_apply, blk5_apply, blk6_apply, blk7_apply, blk8_apply,
    blk9_apply, blk10_apply, blk11_apply, blk12_apply, blk13_apply, blk14_apply, blk15_apply, blk16_apply]
  have f37 : (V m c main_v37 : S9x200x32.Idx → EReal) = fun y => a9 m c (ix2 (tapIx (y 2) (y 0)) (y 1)) :=
    funext fun y => (congrArg _ (eq_ix3 y)).trans (V_v37 m c (y 0) (y 1) (y 2))
  have f39 : (V m c main_v39 : S9x32.Idx → EReal) = fun y => a10 m c (ix1 (tapIx (y 1) (y 0))) :=
    funext fun y => (congrArg _ (eq_ix2 y)).trans (V_v39 m c (y 0) (y 1))
  have f31 : (V m c main_v31 : S32.Idx → EReal) = fun y => Ideal.div (a11 m c (ix1 (y 0))) (Ideal.sqrt (a14 m c (ix1 (y 0)) + ε)) :=
    funext fun y => (congrArg _ (eq_ix1 y)).trans (V_v31 m c (y 0))
  have f35 : (V m c main_v35 : S400.Idx → EReal) = fun y => Ideal.div (a17 m c (ix1 (y 0))) (Ideal.sqrt (a20 m c (ix1 (y 0)) + ε)) :=
    funext fun y => (congrArg _ (eq_ix1 y)).trans (V_v35 m c (y 0))
  have f41 : (V m c main_v41 : S12544x400.Idx → EReal) = fun y => a15 m c (ix2 (y 1) (y 0)) :=
    funext fun y => (congrArg _ (eq_ix2 y)).trans (V_v41 m c (y 0) (y 1))
  rw [V_v25 m c, V_v27 m c, V_v14 m c, V_v21 m c, V_main_arg12 m c, V_main_arg13 m c, V_main_arg16 m c, V_main_arg18 m c,
    V_main_arg19 m c, V_main_arg22 m c, V_main_arg23 m c, f37, f39, f31, f35, f41]
  simp only [V_v42 m c]
  rfl

/-- An index of the result array lies in point `t`'s block iff its row is one of the point's 64 rows. -/
theorem mem_blk17 (t : Fin cfg0.N) (i : S4096x1.Idx) :
    i ∈ ((cfg0.win 17).blk t).view.set ↔ ∀ a : Fin 2, win0_17.index t a * S64x1.size a ≤ (i a).val ∧ (i a).val < win0_17.index t a * S64x1.size a + S64x1.size a := by
  show i ∈ ((View.whole main_v43).slice (win0_17.rect t)).set ↔ _
  rw [View.set_slice_whole, Rect.mem_set_unit]
  exact Iff.rfl

/-- Every batch row belongs to the block of the point `row / 64`. -/
theorem cover17 (i : S4096x1.Idx) : ∃ t : Fin cfg0.N, (cfg0.win 17).flush t = true ∧ i ∈ ((cfg0.win 17).blk t).view.set := by
  have hi0 : (i 0).val < 4096 := (i 0).isLt
  have hi1 : (i 1).val < 1 := (i 1).isLt
  have hN : grid0.N = 64 := N_0
  let t : Fin cfg0.N := ⟨(i 0).val / 64, by show (i 0).val / 64 < grid0.N; omega⟩
  have ht : t.val = (i 0).val / 64 := rfl
  refine ⟨t, flush0_17 t, ?_⟩
  rw [mem_blk17]
  obtain ⟨-, -, -, -, e0, e1⟩ := idx_rows t
  intro a
  match a with
  | ⟨0, _⟩ => show win0_17.index t (0 : Fin 2) * 64 ≤ (i 0).val ∧ (i 0).val < win0_17.index t (0 : Fin 2) * 64 + 64; omega
  | ⟨1, _⟩ => show win0_17.index t (1 : Fin 2) * 1 ≤ (i 1).val ∧ (i 1).val < win0_17.index t (1 : Fin 2) * 1 + 1; omega

/-- What point `t` writes back is block `t` of `G`. -/
theorem flushed_eq (c : Dev nD) (t : Fin cfg0.N) (hf : (cfg0.win 17).flush t = true) :
    (dats m 0 c).flushed 17 t = ((cfg0.win 17).blk t).view.read (Elt Ideal) (G m c) := by
  rw [flushed_body]
  funext j
  obtain ⟨p, z, rfl⟩ : ∃ (p : Fin 64) (z : Fin 1), j = ix2 p z := ⟨j 0, j 1, eq_ix2 j⟩
  obtain rfl : z = 0 := Subsingleton.elim z 0
  obtain ⟨-, -, -, -, e0, e1⟩ := idx_rows t
  have h2 : (cfg0.win 17).xinj (grid0.coords t) (ix2 p (0 : Fin 1)) = ix2 p (0 : Fin 1) := by
    funext a; apply Fin.ext
    match a with
    | ⟨0, _⟩ => rfl
    | ⟨1, _⟩ => rfl
  have h : ((cfg0.win 17).blk t).view.emb (ix2 p (0 : Fin 1)) = ix2 (rowAt t p) (0 : Fin 1) := by
    funext a; apply Fin.ext
    match a with
    | ⟨0, _⟩ => show win0_17.index t (0 : Fin 2) * 64 + 1 * p.val = 64 * t.val + p.val; omega
    | ⟨1, _⟩ => show win0_17.index t (1 : Fin 2) * 1 + 1 * 0 = 0; omega
  show outv (F := Ideal) (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) ((cfg0.win 17).xinj (grid0.coords t) (ix2 p (0 : Fin 1))) = G m c (((cfg0.win 17).blk t).view.emb (ix2 p (0 : Fin 1)))
  rw [h2, h]
  exact body_row m c t p

/-- The result array after the run is `G`: the 64 points' blocks tile the batch. -/
theorem final17 (c : Dev nD) : (dats m 0 c).arrAt 17 cfg0.N = G m c :=
  (dats m 0 c).arrAt_eq_of_cover 17 (G m c) (flushed_eq m c) cover17

end Cert.KernelIdeal.KValue

end
-- ==== Proof.RefConv.lean ====
/-
  The reference program's convolution stage, read one element at a time.  Its result at batch row `b`, channel `o`,
  position `w` is the valid 1×9 convolution of the batch-normalised stacked embedding row with the per-sample filters:
  the filters are the affine image of the relation row (row `o·9 + j` of the weight holds tap `j` of channel `o`), the
  window piece `j` at position `w` is column `j + w` of the normalised row, and the contraction runs over the nine taps.
-/
import proofs.«142079_j17248588661540_1_alg».proof.Proof.Gen.ReferenceIdeal.Read
import proofs.«142079_j17248588661540_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Cert.HyperNet Idealize.ShloMosaic Idealize.ShloMosaic.ValueIdx

/-- A one-element array recast as a scalar is its one element. -/
theorem scalar_read (x : (⟨S1, .f32⟩ : BufTy).Contents (Elt Ideal)) (i : S_.Idx) :
    shapeCast S_ x shapeCasts_S1_S_ i = x (ix1 0) := by
  refine shapeCast_apply x shapeCasts_S1_S_ i (ix1 0) ?_
  rw [Shape.rowMajor_val_one]
  have h : (S_.rowMajor i).val = 0 := Shape.rowMajorPi_zero _ _
  rw [h]
  rfl

/-- The batch norm of the stacked embeddings: `(E − mean) · (γ / √(var + ε)) + β`, the four scalars being the one
    elements of their arrays. -/
theorem v27_read (x0 x2 : (⟨S4096, .i32⟩ : BufTy).Contents (Elt Ideal)) (x3 : (⟨S100000x200, .f32⟩ : BufTy).Contents (Elt Ideal)) (x5 x6 x7 x8 : (⟨S1, .f32⟩ : BufTy).Contents (Elt Ideal)) (b : Fin 4096) (c : Fin 400) :
    val_main_v27 (F := Ideal) x0 x2 x3 x5 x6 x7 x8 (ix2 b c) =
      bnorm (val_main_v14 (F := Ideal) x0 x2 x3 (ix2 b c)) (x7 (ix1 0))
        (Ideal.div (x5 (ix1 0)) (Ideal.sqrt (x8 (ix1 0) + Ideal.ofBits .f32 0x3727C5AC#32))) (x6 (ix1 0)) := by
  rw [val_main_v27_apply, val_main_v24_apply, val_main_v17_apply, val_main_v16_apply, val_main_v23_apply,
    val_main_v26_apply, val_main_v22_apply, val_main_v21_apply, val_main_v20_apply, val_main_cst_apply]
  unfold val_main_v15 val_main_v18 val_main_v19 val_main_v25
  rw [scalar_read, scalar_read, scalar_read, scalar_read]
  rfl

/-- The affine map of the relation row, before it is split into channels and taps. -/
theorem v39_read (x1 : (⟨S4096, .i32⟩ : BufTy).Contents (Elt Ideal)) (x4 : (⟨S500x200, .f32⟩ : BufTy).Contents (Elt Ideal)) (x9 : (⟨S288x200, .f32⟩ : BufTy).Contents (Elt Ideal)) (x10 : (⟨S288, .f32⟩ : BufTy).Contents (Elt Ideal)) (b : Fin 4096) (n : Fin 288) :
    val_main_v39 (F := Ideal) x1 x4 x9 x10 (ix2 b n) =
      (∑ d : Fin 200, val_main_v34 (F := Ideal) x1 x4 (ix2 b d) * x9 (ix2 n d)) + x10 (ix1 n) := by
  rw [val_main_v39_apply, val_main_v36_apply, val_main_v38_apply, val_main_v37_apply]
  have e1 : ∀ k : Fin 200, lidx_main_v36 (ix2 b n) k = ix2 b k := fun k => by
    funext a; match a with | ⟨0, _⟩ => rfl | ⟨1, _⟩ => rfl
  have e2 : ∀ k : Fin 200, val_main_v35 (F := Ideal) x9 (ridx_main_v36 (ix2 b n) k) = x9 (ix2 n k) := fun k => by
    rw [val_main_v35_apply]
    refine congrArg _ (funext fun a => ?_)
    match a with | ⟨0, _⟩ => rfl | ⟨1, _⟩ => rfl
  have e3 : idx_main_v37 (idx_main_v38 (ix2 b n)) = ix1 n := by
    funext a; match a with | ⟨0, _⟩ => rfl
  simp only [e1, e2, e3]
  rfl

/-- The filters: tap `j` of channel `o` is entry `o·9 + j` of the affine map. -/
theorem v40_read (x1 : (⟨S4096, .i32⟩ : BufTy).Contents (Elt Ideal)) (x4 : (⟨S500x200, .f32⟩ : BufTy).Contents (Elt Ideal)) (x9 : (⟨S288x200, .f32⟩ : BufTy).Contents (Elt Ideal)) (x10 : (⟨S288, .f32⟩ : BufTy).Contents (Elt Ideal)) (b : Fin 4096) (o : Fin 32) (j : Fin 9) :
    val_main_v40 (F := Ideal) x1 x4 x9 x10 (ix3 b o j) =
      taps (fun d => val_main_v34 (F := Ideal) x1 x4 (ix2 b d)) (fun n d => x9 (ix2 n d)) (fun n => x10 (ix1 n)) o j := by
  rw [val_main_v40_apply]
  have e : idx_main_v40 (ix3 b o j) = ix2 b (tapIx o j) := by
    funext a
    match a with
    | ⟨0, _⟩ =>
      refine Fin.ext ?_
      show ((b.val * 32 + o.val) * 9 + j.val) / 288 = b.val
      have := o.isLt; have := j.isLt; omega
    | ⟨1, _⟩ =>
      refine Fin.ext ?_
      show ((b.val * 32 + o.val) * 9 + j.val) % 288 = o.val * 9 + j.val
      have := o.isLt; have := j.isLt; omega
  rw [e, v39_read]
  rfl

/-- Nine pieces of extent one joined along the last axis, read at an index: the piece the last coordinate names. -/
theorem concat9 (p : Fin 9 → (⟨S4096x392x1, .f32⟩ : BufTy).Contents (Elt Ideal)) (b : Fin 4096) (w : Fin 392) (j : Fin 9) :
    concatenate S4096x392x9 2 [⟨S4096x392x1, p 0⟩, ⟨S4096x392x1, p 1⟩, ⟨S4096x392x1, p 2⟩, ⟨S4096x392x1, p 3⟩, ⟨S4096x392x1, p 4⟩, ⟨S4096x392x1, p 5⟩, ⟨S4096x392x1, p 6⟩, ⟨S4096x392x1, p 7⟩, ⟨S4096x392x1, p 8⟩] concatenates_S4096x392x1_S4096x392x1_S4096x392x1_S4096x392x1_S4096x392x1_S4096x392x1_S4096x392x1_S4096x392x1_S4096x392x1_S4096x392x9_d2 (ix3 b w j) = p j (ix3 b w 0) := by
  refine concatenate_ofFn_unit_apply (t := S4096x392x9) (s₁ := S4096x392x1) 2 p
    _ rfl rfl (ix3 b w j) j rfl (ix3 b w 0) (fun c => ?_)
  match c with
  | ⟨0, _⟩ => exact fun _ => rfl
  | ⟨1, _⟩ => exact fun _ => rfl
  | ⟨2, _⟩ => exact fun h => absurd rfl h

/-- The nine window pieces joined along the last axis: piece `j` at position `w` is column `j + w` of the normalised row. -/
theorem v59_read (x0 x2 : (⟨S4096, .i32⟩ : BufTy).Contents (Elt Ideal)) (x3 : (⟨S100000x200, .f32⟩ : BufTy).Contents (Elt Ideal)) (x5 x6 x7 x8 : (⟨S1, .f32⟩ : BufTy).Contents (Elt Ideal)) (b : Fin 4096) (w : Fin 392) (j : Fin 9) :
    val_main_v59 (F := Ideal) x0 x2 x3 x5 x6 x7 x8 (ix3 b w j) =
      val_main_v27 (F := Ideal) x0 x2 x3 x5 x6 x7 x8 (ix2 b (winIx w j)) := by
  unfold val_main_v59
  refine (concat9 (![val_main_v50 (F := Ideal) x0 x2 x3 x5 x6 x7 x8, val_main_v51 (F := Ideal) x0 x2 x3 x5 x6 x7 x8, val_main_v52 (F := Ideal) x0 x2 x3 x5 x6 x7 x8,
       val_main_v53 (F := Ideal) x0 x2 x3 x5 x6 x7 x8, val_main_v54 (F := Ideal) x0 x2 x3 x5 x6 x7 x8, val_main_v55 (F := Ideal) x0 x2 x3 x5 x6 x7 x8,
       val_main_v56 (F := Ideal) x0 x2 x3 x5 x6 x7 x8, val_main_v57 (F := Ideal) x0 x2 x3 x5 x6 x7 x8, val_main_v58 (F := Ideal) x0 x2 x3 x5 x6 x7 x8]) b w j).trans ?_
  match j with
  | ⟨0, _⟩ =>
    show val_main_v50 (F := Ideal) x0 x2 x3 x5 x6 x7 x8 (ix3 b w 0) = _
    rw [val_main_v50_apply, val_main_v41_apply]
    refine congrArg _ (funext fun a => ?_)
    match a with
    | ⟨0, _⟩ => rfl
    | ⟨1, _⟩ => exact Fin.ext (Nat.zero_add _).symm
  | ⟨1, _⟩ =>
    show val_main_v51 (F := Ideal) x0 x2 x3 x5 x6 x7 x8 (ix3 b w 0) = _
    rw [val_main_v51_apply, val_main_v42_apply]
    refine congrArg _ (funext fun a => ?_)
    match a with
    | ⟨0, _⟩ => rfl
    | ⟨1, _⟩ => exact rfl
  | ⟨2, _⟩ =>
    show val_main_v52 (F := Ideal) x0 x2 x3 x5 x6 x7 x8 (ix3 b w 0) = _
    rw [val_main_v52_apply, val_main_v43_apply]
    refine congrArg _ (funext fun a => ?_)
    match a with
    | ⟨0, _⟩ => rfl
    | ⟨1, _⟩ => exact rfl
  | ⟨3, _⟩ =>
    show val_main_v53 (F := Ideal) x0 x2 x3 x5 x6 x7 x8 (ix3 b w 0) = _
    rw [val_main_v53_apply, val_main_v44_apply]
    refine congrArg _ (funext fun a => ?_)
    match a with
    | ⟨0, _⟩ => rfl
    | ⟨1, _⟩ => exact rfl
  | ⟨4, _⟩ =>
    show val_main_v54 (F := Ideal) x0 x2 x3 x5 x6 x7 x8 (ix3 b w 0) = _
    rw [val_main_v54_apply, val_main_v45_apply]
    refine congrArg _ (funext fun a => ?_)
    match a with
    | ⟨0, _⟩ => rfl
    | ⟨1, _⟩ => exact rfl
  | ⟨5, _⟩ =>
    show val_main_v55 (F := Ideal) x0 x2 x3 x5 x6 x7 x8 (ix3 b w 0) = _
    rw [val_main_v55_apply, val_main_v46_apply]
    refine congrArg _ (funext fun a => ?_)
    match a with
    | ⟨0, _⟩ => rfl
    | ⟨1, _⟩ => exact rfl
  | ⟨6, _⟩ =>
    show val_main_v56 (F := Ideal) x0 x2 x3 x5 x6 x7 x8 (ix3 b w 0) = _
    rw [val_main_v56_apply, val_main_v47_apply]
    refine congrArg _ (funext fun a => ?_)
    match a with
    | ⟨0, _⟩ => rfl
    | ⟨1, _⟩ => exact rfl
  | ⟨7, _⟩ =>
    show val_main_v57 (F := Ideal) x0 x2 x3 x5 x6 x7 x8 (ix3 b w 0) = _
    rw [val_main_v57_apply, val_main_v48_apply]
    refine congrArg _ (funext fun a => ?_)
    match a with
    | ⟨0, _⟩ => rfl
    | ⟨1, _⟩ => exact rfl
  | ⟨8, _⟩ =>
    show val_main_v58 (F := Ideal) x0 x2 x3 x5 x6 x7 x8 (ix3 b w 0) = _
    rw [val_main_v58_apply, val_main_v49_apply]
    refine congrArg _ (funext fun a => ?_)
    match a with
    | ⟨0, _⟩ => rfl
    | ⟨1, _⟩ => exact rfl

/-- **The convolution stage at an index.** -/
theorem conv_apply (x0 x1 x2 : (⟨S4096, .i32⟩ : BufTy).Contents (Elt Ideal)) (x3 : (⟨S100000x200, .f32⟩ : BufTy).Contents (Elt Ideal)) (x4 : (⟨S500x200, .f32⟩ : BufTy).Contents (Elt Ideal)) (x5 x6 x7 x8 : (⟨S1, .f32⟩ : BufTy).Contents (Elt Ideal)) (x9 : (⟨S288x200, .f32⟩ : BufTy).Contents (Elt Ideal)) (x10 : (⟨S288, .f32⟩ : BufTy).Contents (Elt Ideal)) (b : Fin 4096) (o : Fin 32) (w : Fin 392) :
    val_main_v60 (F := Ideal) x0 x1 x2 x3 x4 x5 x6 x7 x8 x9 x10 (ix3 b o w) =
      conv (fun q => bnorm (val_main_v14 (F := Ideal) x0 x2 x3 (ix2 b q)) (x7 (ix1 0))
              (Ideal.div (x5 (ix1 0)) (Ideal.sqrt (x8 (ix1 0) + Ideal.ofBits .f32 0x3727C5AC#32))) (x6 (ix1 0)))
        (taps (fun d => val_main_v34 (F := Ideal) x1 x4 (ix2 b d)) (fun n d => x9 (ix2 n d)) (fun n => x10 (ix1 n))) o w := by
  rw [val_main_v60_apply]
  unfold conv
  refine Finset.sum_congr rfl fun j _ => ?_
  have el : lidx_main_v60 (ix3 b o w) j = ix3 b o j := by
    funext a; match a with | ⟨0, _⟩ => rfl | ⟨1, _⟩ => rfl | ⟨2, _⟩ => rfl
  have er : ridx_main_v60 (ix3 b o w) j = ix3 b w j := by
    funext a; match a with | ⟨0, _⟩ => rfl | ⟨1, _⟩ => rfl | ⟨2, _⟩ => rfl
  rw [el, er, v40_read, v59_read, v27_read]

end Cert.ReferenceIdeal.RefValue

end
-- ==== Proof.RefTail.lean ====
/-
  The reference program's tail, read at an index: from the convolution result to the final score.
  The per-channel batch norm, the flattening (channel, position) ↦ channel·392 + position, the dense layer over
  the 12544 flattened features, the per-feature batch norm and the scalar head are each read off the program's
  operations one at a time, and assembled into the specification's `head`/`bnorm`/`dense` form.
-/
import proofs.«142079_j17248588661540_1_alg».proof.Proof.Gen.ReferenceIdeal.Read
import proofs.«142079_j17248588661540_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Read Cert.HyperNet Idealize.ShloMosaic Idealize.ShloMosaic.ValueIdx

variable (x0 x1 x2 : (⟨S4096, .i32⟩ : BufTy).Contents (Elt Ideal)) (x3 : (⟨S100000x200, .f32⟩ : BufTy).Contents (Elt Ideal))
  (x4 : (⟨S500x200, .f32⟩ : BufTy).Contents (Elt Ideal)) (x5 x6 x7 x8 : (⟨S1, .f32⟩ : BufTy).Contents (Elt Ideal))
  (x9 : (⟨S288x200, .f32⟩ : BufTy).Contents (Elt Ideal)) (x10 : (⟨S288, .f32⟩ : BufTy).Contents (Elt Ideal))
  (x11 x12 x13 x14 : (⟨S32, .f32⟩ : BufTy).Contents (Elt Ideal)) (x15 : (⟨S400x12544, .f32⟩ : BufTy).Contents (Elt Ideal))
  (x16 x17 x18 x19 x20 : (⟨S400, .f32⟩ : BufTy).Contents (Elt Ideal)) (x21 : (⟨S1x400, .f32⟩ : BufTy).Contents (Elt Ideal))
  (x22 x23 : (⟨S1, .f32⟩ : BufTy).Contents (Elt Ideal))

/-- The first batch norm's scale `γ₁ / √(var₁ + ε)`, per channel. -/
theorem scale1_apply (j : S32.Idx) :
    val_main_v64 (F := Ideal) x11 x14 j = Ideal.div (x11 j) (Ideal.sqrt (x14 j + Ideal.ofBits .f32 0x3727C5AC#32)) := by
  rw [val_main_v64_apply, val_main_v63_apply, val_main_v62_apply, val_main_v61_apply, val_main_cst_5_apply]
  rfl

/-- The second batch norm's scale `γ₂ / √(var₂ + ε)`, per feature. -/
theorem scale2_apply (j : S400.Idx) :
    val_main_v86 (F := Ideal) x17 x20 j = Ideal.div (x17 j) (Ideal.sqrt (x20 j + Ideal.ofBits .f32 0x3727C5AC#32)) := by
  rw [val_main_v86_apply, val_main_v85_apply, val_main_v84_apply, val_main_v83_apply, val_main_cst_6_apply]
  rfl

/-- The per-channel batch norm of the convolution result, at batch row `b`, channel `o`, position `w`. -/
theorem bn1_apply (b : Fin 4096) (o : Fin 32) (w : Fin 392) :
    val_main_v73 (F := Ideal) x0 x1 x2 x3 x4 x5 x6 x7 x8 x9 x10 x11 x12 x13 x14 (ix3 b o w) =
      bnorm (val_main_v60 (F := Ideal) x0 x1 x2 x3 x4 x5 x6 x7 x8 x9 x10 (ix3 b o w)) (x13 (ix1 o))
        (Ideal.div (x11 (ix1 o)) (Ideal.sqrt (x14 (ix1 o) + Ideal.ofBits .f32 0x3727C5AC#32))) (x12 (ix1 o)) := by
  rw [val_main_v73_apply, val_main_v70_apply, val_main_v67_apply, val_main_v66_apply, val_main_v65_apply,
    val_main_v69_apply, val_main_v68_apply, scale1_apply, val_main_v72_apply, val_main_v71_apply]
  have e1 : idx_main_v65 (idx_main_v66 (ix3 b o w)) = ix1 o := by
    funext a; match a with | ⟨0, _⟩ => rfl
  have e2 : idx_main_v68 (idx_main_v69 (ix3 b o w)) = ix1 o := by
    funext a; match a with | ⟨0, _⟩ => rfl
  have e3 : idx_main_v71 (idx_main_v72 (ix3 b o w)) = ix1 o := by
    funext a; match a with | ⟨0, _⟩ => rfl
  rw [e1, e2, e3]
  rfl

/-- Flattening: feature `q` of row `b` is channel `q / 392`, position `q % 392`. -/
theorem flat_apply (b : Fin 4096) (q : Fin 12544) :
    val_main_v74 (F := Ideal) x0 x1 x2 x3 x4 x5 x6 x7 x8 x9 x10 x11 x12 x13 x14 (ix2 b q) =
      val_main_v73 (F := Ideal) x0 x1 x2 x3 x4 x5 x6 x7 x8 x9 x10 x11 x12 x13 x14 (ix3 b (chanOf q) (posOf q)) := by
  rw [val_main_v74_apply]
  have e : idx_main_v74 (ix2 b q) = ix3 b (chanOf q) (posOf q) := by
    have hb := b.isLt
    have hq := q.isLt
    funext a
    match a with
    | ⟨0, _⟩ => exact Fin.ext (by show (b.val * 12544 + q.val) / 12544 = b.val; omega)
    | ⟨1, _⟩ => exact Fin.ext (by show (b.val * 12544 + q.val) / 392 % 32 = q.val / 392; omega)
    | ⟨2, _⟩ => exact Fin.ext (by show (b.val * 12544 + q.val) % 392 = q.val % 392; omega)
  rw [e]

/-- The dense layer over the flattened features, at row `b`, output feature `n`. -/
theorem dense_apply (b : Fin 4096) (n : Fin 400) :
    val_main_v79 (F := Ideal) x0 x1 x2 x3 x4 x5 x6 x7 x8 x9 x10 x11 x12 x13 x14 x15 x16 (ix2 b n) =
      dense (fun o w => bnorm (val_main_v60 (F := Ideal) x0 x1 x2 x3 x4 x5 x6 x7 x8 x9 x10 (ix3 b o w)) (x13 (ix1 o))
          (Ideal.div (x11 (ix1 o)) (Ideal.sqrt (x14 (ix1 o) + Ideal.ofBits .f32 0x3727C5AC#32))) (x12 (ix1 o)))
        (fun n q => x15 (ix2 n q)) (fun n => x16 (ix1 n)) n := by
  rw [val_main_v79_apply, val_main_v76_apply, val_main_v78_apply, val_main_v77_apply]
  have eb : idx_main_v77 (idx_main_v78 (ix2 b n)) = ix1 n := by
    funext a; match a with | ⟨0, _⟩ => rfl
  rw [eb]
  have hs : ∀ k : Fin 12544,
      val_main_v74 (F := Ideal) x0 x1 x2 x3 x4 x5 x6 x7 x8 x9 x10 x11 x12 x13 x14 (lidx_main_v76 (ix2 b n) k)
          * val_main_v75 (F := Ideal) x15 (ridx_main_v76 (ix2 b n) k) =
        bnorm (val_main_v60 (F := Ideal) x0 x1 x2 x3 x4 x5 x6 x7 x8 x9 x10 (ix3 b (chanOf k) (posOf k))) (x13 (ix1 (chanOf k)))
          (Ideal.div (x11 (ix1 (chanOf k))) (Ideal.sqrt (x14 (ix1 (chanOf k)) + Ideal.ofBits .f32 0x3727C5AC#32))) (x12 (ix1 (chanOf k)))
          * x15 (ix2 n k) := by
    intro k
    have el : lidx_main_v76 (ix2 b n) k = ix2 b k := by
      funext a; match a with | ⟨0, _⟩ => rfl | ⟨1, _⟩ => rfl
    have er : idx_main_v75 (ridx_main_v76 (ix2 b n) k) = ix2 n k := by
      funext a; match a with | ⟨0, _⟩ => rfl | ⟨1, _⟩ => rfl
    rw [el, flat_apply, bn1_apply, val_main_v75_apply, er]
  rw [Finset.sum_congr rfl (fun k _ => hs k)]
  rfl

/-- The per-feature batch norm of the dense layer's result, at row `b`, feature `n`. -/
theorem bn2_apply (b : Fin 4096) (n : Fin 400) :
    val_main_v92 (F := Ideal) x0 x1 x2 x3 x4 x5 x6 x7 x8 x9 x10 x11 x12 x13 x14 x15 x16 x17 x18 x19 x20 (ix2 b n) =
      bnorm (val_main_v79 (F := Ideal) x0 x1 x2 x3 x4 x5 x6 x7 x8 x9 x10 x11 x12 x13 x14 x15 x16 (ix2 b n)) (x19 (ix1 n))
        (Ideal.div (x17 (ix1 n)) (Ideal.sqrt (x20 (ix1 n) + Ideal.ofBits .f32 0x3727C5AC#32))) (x18 (ix1 n)) := by
  rw [val_main_v92_apply, val_main_v89_apply, val_main_v82_apply, val_main_v81_apply, val_main_v80_apply,
    val_main_v88_apply, val_main_v87_apply, scale2_apply, val_main_v91_apply, val_main_v90_apply]
  have e1 : idx_main_v80 (idx_main_v81 (ix2 b n)) = ix1 n := by
    funext a; match a with | ⟨0, _⟩ => rfl
  have e2 : idx_main_v87 (idx_main_v88 (ix2 b n)) = ix1 n := by
    funext a; match a with | ⟨0, _⟩ => rfl
  have e3 : idx_main_v90 (idx_main_v91 (ix2 b n)) = ix1 n := by
    funext a; match a with | ⟨0, _⟩ => rfl
  rw [e1, e2, e3]
  rfl

/-- The reference's result at an index whose row is `b`: the scalar head over the normalised dense features. -/
theorem out_row_apply (i : S4096x1.Idx) (b : Fin 4096) (hb : i 0 = b) :
    val_main_v101 (F := Ideal) x0 x1 x2 x3 x4 x5 x6 x7 x8 x9 x10 x11 x12 x13 x14 x15 x16 x17 x18 x19 x20 x21 x22 x23 i =
      head (fun n => bnorm (dense (fun o w => bnorm (val_main_v60 (F := Ideal) x0 x1 x2 x3 x4 x5 x6 x7 x8 x9 x10 (ix3 b o w)) (x13 (ix1 o))
                (Ideal.div (x11 (ix1 o)) (Ideal.sqrt (x14 (ix1 o) + Ideal.ofBits .f32 0x3727C5AC#32))) (x12 (ix1 o)))
              (fun n q => x15 (ix2 n q)) (fun n => x16 (ix1 n)) n)
            (x19 (ix1 n)) (Ideal.div (x17 (ix1 n)) (Ideal.sqrt (x20 (ix1 n) + Ideal.ofBits .f32 0x3727C5AC#32))) (x18 (ix1 n)))
        (fun n => x21 (ix2 0 n)) (x22 (ix1 0)) (x23 (ix1 0)) := by
  rw [val_main_v101_apply, val_main_v98_apply, val_main_v97_apply, val_main_v94_apply, val_main_v96_apply,
    val_main_v95_apply, val_main_v100_apply, val_main_v99_apply]
  have e22 : idx_main_v95 (idx_main_v96 i) = ix1 0 := by
    funext a; match a with | ⟨0, _⟩ => rfl
  have e23 : idx_main_v99 (idx_main_v100 i) = ix1 0 := by
    funext a; match a with | ⟨0, _⟩ => rfl
  rw [e22, e23]
  have hs : ∀ k : Fin 400,
      val_main_v92 (F := Ideal) x0 x1 x2 x3 x4 x5 x6 x7 x8 x9 x10 x11 x12 x13 x14 x15 x16 x17 x18 x19 x20 (lidx_main_v94 i k)
          * val_main_v93 (F := Ideal) x21 (ridx_main_v94 i k) =
        bnorm (dense (fun o w => bnorm (val_main_v60 (F := Ideal) x0 x1 x2 x3 x4 x5 x6 x7 x8 x9 x10 (ix3 b o w)) (x13 (ix1 o))
                (Ideal.div (x11 (ix1 o)) (Ideal.sqrt (x14 (ix1 o) + Ideal.ofBits .f32 0x3727C5AC#32))) (x12 (ix1 o)))
              (fun n q => x15 (ix2 n q)) (fun n => x16 (ix1 n)) k)
            (x19 (ix1 k)) (Ideal.div (x17 (ix1 k)) (Ideal.sqrt (x20 (ix1 k) + Ideal.ofBits .f32 0x3727C5AC#32))) (x18 (ix1 k))
          * x21 (ix2 0 k) := by
    intro k
    have el : lidx_main_v94 i k = ix2 b k := by
      funext a; match a with | ⟨0, _⟩ => exact hb | ⟨1, _⟩ => rfl
    have er : idx_main_v93 (ridx_main_v94 i k) = ix2 0 k := by
      funext a
      match a with
      | ⟨0, _⟩ => exact Fin.ext (by show (i 1).val = 0; have := idx2_lt1 i; omega)
      | ⟨1, _⟩ => rfl
    rw [el, bn2_apply, dense_apply, val_main_v93_apply, er]
  rw [Finset.sum_congr rfl (fun k _ => hs k)]
  rfl

/-- The reference's result at row `i 0`: the scalar head over the normalised dense features. -/
theorem out_apply (i : S4096x1.Idx) :
    val_main_v101 (F := Ideal) x0 x1 x2 x3 x4 x5 x6 x7 x8 x9 x10 x11 x12 x13 x14 x15 x16 x17 x18 x19 x20 x21 x22 x23 i =
      head (fun n => bnorm (dense (fun o w => bnorm (val_main_v60 (F := Ideal) x0 x1 x2 x3 x4 x5 x6 x7 x8 x9 x10 (ix3 (i 0) o w)) (x13 (ix1 o))
                (Ideal.div (x11 (ix1 o)) (Ideal.sqrt (x14 (ix1 o) + Ideal.ofBits .f32 0x3727C5AC#32))) (x12 (ix1 o)))
              (fun n q => x15 (ix2 n q)) (fun n => x16 (ix1 n)) n)
            (x19 (ix1 n)) (Ideal.div (x17 (ix1 n)) (Ideal.sqrt (x20 (ix1 n) + Ideal.ofBits .f32 0x3727C5AC#32))) (x18 (ix1 n)))
        (fun n => x21 (ix2 0 n)) (x22 (ix1 0)) (x23 (ix1 0)) :=
  out_row_apply x0 x1 x2 x3 x4 x5 x6 x7 x8 x9 x10 x11 x12 x13 x14 x15 x16 x17 x18 x19 x20 x21 x22 x23 i (i 0) rfl

end Cert.ReferenceIdeal.RefValue

end
-- ==== Proof.RefAll.lean ====
/-
  The reference's result array as one function of @main's arguments: every batch row through the row network, the
  first batch norm in its in-place spelling — the convolution stage and the tail read at an index, put together.
-/
import proofs.«142079_j17248588661540_1_alg».proof.Proof.Gen.ReferenceIdeal.Read
import proofs.«142079_j17248588661540_1_alg».proof.Proof.RefConv
import proofs.«142079_j17248588661540_1_alg».proof.Proof.RefTail
import proofs.«142079_j17248588661540_1_alg».proof.Proof.Net

noncomputable section

namespace Cert.ReferenceIdeal.RefValue

open Cert.ReferenceIdeal Cert.ReferenceIdeal.Read Cert.HyperNet Idealize.ShloMosaic Idealize.ShloMosaic.ValueIdx

/-- The reference's result is `net` of the in-place normalised embeddings. -/
theorem ref_value (x0 x1 x2 : (⟨S4096, .i32⟩ : BufTy).Contents (Elt Ideal)) (x3 : (⟨S100000x200, .f32⟩ : BufTy).Contents (Elt Ideal)) (x4 : (⟨S500x200, .f32⟩ : BufTy).Contents (Elt Ideal)) (x5 x6 x7 x8 : (⟨S1, .f32⟩ : BufTy).Contents (Elt Ideal)) (x9 : (⟨S288x200, .f32⟩ : BufTy).Contents (Elt Ideal)) (x10 : (⟨S288, .f32⟩ : BufTy).Contents (Elt Ideal)) (x11 x12 x13 x14 : (⟨S32, .f32⟩ : BufTy).Contents (Elt Ideal)) (x15 : (⟨S400x12544, .f32⟩ : BufTy).Contents (Elt Ideal)) (x16 x17 x18 x19 x20 : (⟨S400, .f32⟩ : BufTy).Contents (Elt Ideal)) (x21 : (⟨S1x400, .f32⟩ : BufTy).Contents (Elt Ideal)) (x22 x23 : (⟨S1, .f32⟩ : BufTy).Contents (Elt Ideal)) :
    val_main_v101 (F := Ideal) x0 x1 x2 x3 x4 x5 x6 x7 x8 x9 x10 x11 x12 x13 x14 x15 x16 x17 x18 x19 x20 x21 x22 x23 =
      net (xNorm (val_main_v14 (F := Ideal) x0 x2 x3) x5 x6 x7 x8 (Ideal.ofBits .f32 0x3727C5AC#32))
        (val_main_v34 (F := Ideal) x1 x4) x9 x10 x11 x12 x13 x14 x15 x16 x17 x18 x19 x20 x21 x22 x23
        (Ideal.ofBits .f32 0x3727C5AC#32) := by
  funext i
  refine (out_row_apply x0 x1 x2 x3 x4 x5 x6 x7 x8 x9 x10 x11 x12 x13 x14 x15 x16 x17 x18 x19 x20 x21 x22 x23 i ⟨(i 0).val, (i 0).isLt⟩ rfl).trans ?_
  simp only [conv_apply]
  rfl

end Cert.ReferenceIdeal.RefValue

end
-- ==== Proof.PreFacts.lean ====
/-
  The printed precondition, read back: every float argument is finite, and the first batch norm's
  variance plus its epsilon is positive.  The precondition is a left-nested conjunction (by `and` on
  one-bit words) of one "all elements satisfy" reduction per float argument, `|x| < +∞`, followed by
  the reduction of `var + ε > 0`.  Over the extended reals `|x| = max x (-x) < ⊤` says `x` is a real.
-/
import proofs.«142079_j17248588661540_1_alg».proof.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws
import Mathlib.Data.EReal.Basic

namespace Cert.HyperNet.PreFacts

open Cert.Pre_finite_inputs Idealize.ShloMosaic Idealize.ShloMosaic.ValueIdx

/-- The rank-0 shape has exactly one index. -/
instance subsingleton_scalar_idx : Subsingleton S_.Idx := ⟨fun a b => funext fun d => d.elim0⟩

/-- A one-bit word made from a Boolean is 1 exactly when the Boolean is true. -/
theorem ofBool_eq_one' {b : Bool} : BitVec.ofBool b = 1#1 ↔ b = true := by cases b <;> decide

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` denotes `+∞`. -/
theorem ofBits_inf_f32 : Ideal.ofBits .f32 0x7F800000#32 = (⊤ : EReal) := by
  simp [Ideal.ofBits, Ideal.ieee]

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The batch norm's epsilon is a real number. -/
theorem eps_real : ∃ e : ℝ, Ideal.ofBits .f32 0x3727C5AC#32 = (e : EReal) :=
  ieee_real 8 23 (0x3727C5AC#32 : BitVec 32) (by decide)

/-- The elementwise `and` of two arrays of words, read at an index. -/
theorem andi_at {s : Shape} {w : Nat} (x y : IVec s w) (i : s.Idx) : andi x y i = IntOp.andi (x i) (y i) := rfl

/-- "All `|x| < +∞`" being true says every element of `x` is a real number. -/
theorem finite_of_all {T : Shape} {axes : List (Fin T.rank)} (x : FVec Ideal T .f32)
    (hb : S_.BroadcastsInDim T (![] : Fin 0 → Fin T.rank)) (init : IVec S_ 1) (h : T.ReducesTo axes S_) (hu : 0 < S_.numel)
    (e : Host.reduce IntOp.andi (cmpf .olt (Host.absf x)
      (broadcastInDim T ![] hb (constant (F := Ideal) S_ .f32 0x7F800000#32))) init h hu ix0 = 1#1) (i : T.Idx) :
    ∃ r : ℝ, x i = (r : EReal) := by
  have hi := Host.reduce_andi_all _ _ h hu ix0 e i
  rw [cmpf_apply, broadcastInDim_scalar_apply, constant_apply, ofBits_inf_f32] at hi
  refine real_of_abs_lt_top (x i) ?_
  have hi' : Ideal.cmp .olt (max (x i) (-(x i))) ⊤ = 1#1 := hi
  simpa [Ideal.cmp, ofBool_eq_one'] using hi'

theorem of_pre [Cert.Pre_finite_inputs.Facts] (a0 a1 a2 : IVec S4096 32) (a3 : FVec Ideal S100000x200 .f32) (a4 : FVec Ideal S500x200 .f32)
    (a5 a6 a7 a8 : FVec Ideal S1 .f32) (a9 : FVec Ideal S288x200 .f32) (a10 : FVec Ideal S288 .f32)
    (a11 a12 a13 a14 : FVec Ideal S32 .f32) (a15 : FVec Ideal S400x12544 .f32)
    (a16 a17 a18 a19 a20 : FVec Ideal S400 .f32) (a21 : FVec Ideal S1x400 .f32) (a22 a23 : FVec Ideal S1 .f32)
    (h : fn (F := Ideal) a0 a1 a2 a3 a4 a5 a6 a7 a8 a9 a10 a11 a12 a13 a14 a15 a16 a17 a18 a19 a20 a21 a22 a23 = fun _ => 1#1) :
    (∀ i, ∃ r : ℝ, a3 i = (r : EReal)) ∧ (∃ r : ℝ, a5 (ix1 0) = (r : EReal)) ∧ (∃ r : ℝ, a6 (ix1 0) = (r : EReal)) ∧
    (∃ r : ℝ, a7 (ix1 0) = (r : EReal)) ∧ (∃ r : ℝ, a8 (ix1 0) = (r : EReal)) ∧
    (0 : EReal) < a8 (ix1 0) + Ideal.ofBits .f32 0x3727C5AC#32 := by
  have h0 := congrFun h ix0
  dsimp only [fn, fn_part1, fn_part2, fn_part3, fn_part4, fn_part5, fn_part6] at h0
  simp only [andi_at, IntOp.andi_eq_one, and_assoc] at h0
  obtain ⟨h3, -, h5, h6, h7, h8, -, -, -, -, -, -, -, -, -, -, -, -, -, -, -, he⟩ := h0
  refine ⟨finite_of_all a3 _ _ _ _ h3, finite_of_all a5 _ _ _ _ h5 _, finite_of_all a6 _ _ _ _ h6 _,
    finite_of_all a7 _ _ _ _ h7 _, finite_of_all a8 _ _ _ _ h8 _, ?_⟩
  have hi := Host.reduce_andi_all _ _ _ _ ix0 he (ix1 0)
  rw [cmpf_apply, addf_apply, broadcastInDim_scalar_apply, broadcastInDim_scalar_apply, constant_apply,
    constant_apply, Ideal.ofBits_zero_f32] at hi
  have hi' : Ideal.cmp .ogt (a8 (ix1 0) + Ideal.ofBits .f32 0x3727C5AC#32) 0 = 1#1 := hi
  simpa [Ideal.cmp, ofBool_eq_one'] using hi'

end Cert.HyperNet.PreFacts
-- ==== Proof.EmbedFinite.lean ====
/-
  The stacked gathered embeddings are finite when the table is.  A row gather reads each of its elements from the
  table, and a concatenation reads each of its elements from one of its pieces; so every element of the
  concatenation of two row gathers of the table is an element of the table, a real number when all of those are.
-/
import proofs.«142079_j17248588661540_1_alg».proof.Proof.Gen.ReferenceIdeal.Read
import Idealize.ShloMosaic.Lib.Pipeline.Value
import Idealize.ShloMosaic.Lib.ValueIdx

namespace Cert.ReferenceIdeal.RefValue

open Cert.ReferenceIdeal Cert.ReferenceIdeal.Read Idealize.ShloMosaic Idealize.ShloMosaic.ValueIdx

/-- Every element of a concatenation is an element of one of its pieces: a property that holds of every element
    of every piece holds of every element of the concatenation. -/
theorem concatenate_elem {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

/-- Every element of a gather is an element of the gathered array. -/
theorem gather_elem {α : Type} {w : Nat} {s si t : Shape} (d : GatherDims s si t) (x : s.Idx → α) (idx : IVec si w)
    (P : α → Prop) (hP : ∀ k, P (x k)) (j : t.Idx) : P (Host.gather d x idx j) :=
  hP _

/-- Each element of the two stacked row gathers of the table is a real number when every element of the table is. -/
theorem embed_finite (x0 x2 : (⟨S4096, .i32⟩ : BufTy).Contents (Elt Ideal))
    (x3 : (⟨S100000x200, .f32⟩ : BufTy).Contents (Elt Ideal)) (h : ∀ k, ∃ r : ℝ, x3 k = (r : EReal))
    (i : S4096x400.Idx) : ∃ r : ℝ, val_main_v14 (F := Ideal) x0 x2 x3 i = (r : EReal) := by
  unfold val_main_v14
  refine concatenate_elem _ _ _ (fun v => ∃ r : ℝ, v = (r : EReal)) ?_ i
  intro p hp k
  simp only [List.mem_cons, List.not_mem_nil, or_false] at hp
  rcases hp with rfl | rfl
  · exact gather_elem _ x3 _ (fun v => ∃ r : ℝ, v = (r : EReal)) h k
  · exact gather_elem _ x3 _ (fun v => ∃ r : ℝ, v = (r : EReal)) h k

end Cert.ReferenceIdeal.RefValue
-- ==== Proof.lean ====
/-
  The certificate of the per-sample-filter network kernel against its jnp reference, over the extended reals.

  Both programs gather the entity and relation embeddings on the host and then compute, for each of the 4096
  batch rows, the same row network (Proof/Spec.lean): per-sample filters from the relation row, a valid 1×9
  convolution of the batch-normalised stacked entity row with those filters, a per-channel batch norm, a dense
  layer over the 32·392 features, a per-feature batch norm, and tanh of a last inner product plus biases.  The
  kernel runs 64 grid points of 64 rows each and accumulates the convolution tap by tap in a scratch buffer; the
  reference is one whole-array expression.  Sums, their order and grouping, and changes of float format do not
  matter on the extended reals.  The ONE algebraic difference is the first batch norm: the kernel folds it into
  `e · s + (β − μ · s)` with `s = γ / √(var + ε)` formed beforehand, the reference computes `(e − μ) · s + β`.
  These agree by distributivity when all five numbers are real, which the precondition gives: every float input
  is finite, and `var + ε > 0` keeps `s` finite (at `var + ε = 0` the scale is infinite and the two spellings
  differ: `⊤ + ⊥` against `0 · ⊤`).

  The three frames: the two kernel programs' frames are the generated ones; the reference's is its generated run
  with the result dropped.  The idealization ledger is empty.  The value claim sets the kernel's run (its result
  array named block by block, then read as one function `G` of the arguments: Proof/KernelValue.lean) beside the
  reference's run (its result read stage by stage: Proof/RefAll.lean), and joins the two by the law above.
-/
import proofs.«142079_j17248588661540_1_alg».proof.Defs
import proofs.«142079_j17248588661540_1_alg».proof.Proof.Gen.Kernel
import proofs.«142079_j17248588661540_1_alg».proof.Proof.Gen.Kernel.Frame
import proofs.«142079_j17248588661540_1_alg».proof.Proof.Gen.KernelIdeal
import proofs.«142079_j17248588661540_1_alg».proof.Proof.Gen.KernelIdeal.Frame
import proofs.«142079_j17248588661540_1_alg».proof.Proof.Gen.KernelIdeal.Value
import proofs.«142079_j17248588661540_1_alg».proof.Proof.Gen.ReferenceIdeal
import proofs.«142079_j17248588661540_1_alg».proof.Proof.Gen.ReferenceIdeal.Run
import proofs.«142079_j17248588661540_1_alg».proof.Proof.Gen.ReferenceIdeal.Read
import proofs.«142079_j17248588661540_1_alg».proof.Proof.Gen.Pre_finite_inputs
import proofs.«142079_j17248588661540_1_alg».proof.Proof.KernelValue
import proofs.«142079_j17248588661540_1_alg».proof.Proof.RefAll
import proofs.«142079_j17248588661540_1_alg».proof.Proof.PreFacts
import proofs.«142079_j17248588661540_1_alg».proof.Proof.EmbedFinite
import proofs.«142079_j17248588661540_1_alg».proof.Proof.Net
import Idealize.ShloMosaic.Adequacy
import Idealize.ShloMosaic.Init

noncomputable section

namespace Cert.Proof

open Idealize.ShloMosaic Idealize.ShloMosaic.TcCoe Idealize.SL.Sem Idealize.ShloMosaic.ValueIdx Cert.HyperNet

section Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the kernel's arguments: the kernel's by its value leg, the
    reference's by its stages read at an index, the arguments' agreement, and the batch-norm law under the
    precondition's finiteness and positivity facts. -/
theorem algebraic : Cert.algebraic_KernelIdeal_ReferenceIdeal := by
  intro m ρ m' ρ' hpre hagree
  refine ⟨fun c => Cert.KernelIdeal.KValue.G m c, ?_, ?_⟩
  · exact (θ_run Cert.KernelIdeal.defs _ _).mono
      (fun r h c => ⟨(h c).1.trans (Cert.KernelIdeal.KValue.final17 m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10, g11, g12, g13, g14, g15, g16, g17, g18, g19, g20, g21, g22, g23⟩ := hagree c
    rw [Cert.ReferenceIdeal.Read.val_main_v101_eq, g0, g1, g2, g3, g4, g5, g6, g7, g8, g9, g10, g11, g12, g13, g14, g15, g16, g17, g18, g19, g20, g21, g22, g23]
    obtain ⟨h3, h5, h6, h7, h8, hpos⟩ := Cert.HyperNet.PreFacts.of_pre _ _ _ _ _ _ _ _ _ _ _ _ _ _ _ _ _ _ _ _ _ _ _ _ (hpre c)
    refine (Cert.ReferenceIdeal.RefValue.ref_value _ _ _ _ _ _ _ _ _ _ _ _ _ _ _ _ _ _ _ _ _ _ _ _).trans ?_
    rw [← x_agree _ _ _ _ _ _ (Cert.ReferenceIdeal.RefValue.embed_finite _ _ _ h3) h5 h6 h7 h8 Cert.HyperNet.PreFacts.eps_real hpos]
    rfl

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
